-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x17 : Shape := ⟨2, ![500000, 17]⟩
abbrev S2x16000000 : Shape := ⟨2, ![2, 16000000]⟩
abbrev S16000000 : Shape := ⟨1, ![16000000]⟩
abbrev S1x17 : Shape := ⟨2, ![1, 17]⟩
abbrev S1 : Shape := ⟨1, ![1]⟩
abbrev S1x1 : Shape := ⟨2, ![1, 1]⟩
abbrev S_ : Shape := ⟨0, ![]⟩

class Facts : Prop where
  bcast_S_S500000x17 : S_.BroadcastsInDim S500000x17 (![] : Fin 0 → Fin S500000x17.rank)
  reducesTo_S500000x17_S_d0_1 : S500000x17.ReducesTo [0, 1] S_
  h_S_ : 0 < S_.numel
  bcast_S_S16000000 : S_.BroadcastsInDim S16000000 (![] : Fin 0 → Fin S16000000.rank)
  reducesTo_S16000000_S_d0 : S16000000.ReducesTo [0] S_
  bcast_S_S1x17 : S_.BroadcastsInDim S1x17 (![] : Fin 0 → Fin S1x17.rank)
  reducesTo_S1x17_S_d0_1 : S1x17.ReducesTo [0, 1] S_
  bcast_S_S1 : S_.BroadcastsInDim S1 (![] : Fin 0 → Fin S1.rank)
  reducesTo_S1_S_d0 : S1.ReducesTo [0] S_
  bcast_S_S1x1 : S_.BroadcastsInDim S1x1 (![] : Fin 0 → Fin S1x1.rank)
  reducesTo_S1x1_S_d0_1 : S1x1.ReducesTo [0, 1] S_

variable [Facts]

def fn_part1 {F : FTy → Type} [FloatOps F] (main_arg5 : FVec F S1x17 .f32) (main_arg6 : FVec F S1x1 .f32) (main_arg7 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S1x17 .f32 := Host.absf main_arg5
  let main_cst_6 : FVec F S_ .f32 := constant S_ .f32 0x7F800000#32
  let main_v20 : FVec F S1x17 .f32 := broadcastInDim S1x17 ![] bcast_S_S1x17 main_cst_6
  let main_v21 : IVec S1x17 1 := cmpf .olt main_v19 main_v20
  let main_c_7 : IVec S_ 1 := constantI S_ 1 1#1
  let main_v22 : IVec S_ 1 := (fun x v => Host.reduce IntOp.andi x v reducesTo_S1x17_S_d0_1 h_S_) main_v21 main_c_7
  let main_v23 : IVec S_ 1 := andi main_v18 main_v22
  let main_v24 : FVec F S1x1 .f32 := Host.absf main_arg6
  let main_cst_8 : FVec F S_ .f32 := constant S_ .f32 0x7F800000#32
  let main_v25 : FVec F S1x1 .f32 := broadcastInDim S1x1 ![] bcast_S_S1x1 main_cst_8
  let main_v26 : IVec S1x1 1 := cmpf .olt main_v24 main_v25
  let main_c_9 : IVec S_ 1 := constantI S_ 1 1#1
  let main_v27 : IVec S_ 1 := (fun x v => Host.reduce IntOp.andi x v reducesTo_S1x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S500000x17 .f32) (main_arg1 : IVec S2x16000000 32) (main_arg2 : FVec F S16000000 .f32) (main_arg3 : FVec F S1x17 .f32) (main_arg4 : FVec F S1 .f32) (main_arg5 : FVec F S1x17 .f32) (main_arg6 : FVec F S1x1 .f32) (main_arg7 : FVec F S1 .f32) : IVec S_ 1 :=
  let main_v0 : FVec F S500000x17 .f32 := Host.absf main_arg0
  let main_cst : FVec F S_ .f32 := constant S_ .f32 0x7F800000#32
  let main_v1 : FVec F S500000x17 .f32 := broadcastInDim S500000x17 ![] bcast_S_S500000x17 main_cst
  let main_v2 : IVec S500000x17 1 := cmpf .olt main_v0 main_v1
  let main_c : IVec S_ 1 := constantI S_ 1 1#1
  let main_v3 : IVec S_ 1 := (fun x v => Host.reduce IntOp.andi x v reducesTo_S500000x17_S_d0_1 h_S_) main_v2 main_c
  let main_v4 : FVec F S16000000 .f32 := Host.absf main_arg2
  let main_cst_0 : FVec F S_ .f32 := constant S_ .f32 0x7F800000#32
  let main_v5 : FVec F S16000000 .f32 := broadcastInDim S16000000 ![] bcast_S_S16000000 main_cst_0
  let main_v6 : IVec S16000000 1 := cmpf .olt main_v4 main_v5
  let main_c_1 : IVec S_ 1 := constantI S_ 1 1#1
  let main_v7 : IVec S_ 1 := (fun x v => Host.reduce IntOp.andi x v reducesTo_S16000000_S_d0 h_S_) main_v6 main_c_1
  let main_v8 : IVec S_ 1 := andi main_v3 main_v7
  let main_v9 : FVec F S1x17 .f32 := Host.absf main_arg3
  let main_cst_2 : FVec F S_ .f32 := constant S_ .f32 0x7F800000#32
  let main_v10 : FVec F S1x17 .f32 := broadcastInDim S1x17 ![] bcast_S_S1x17 main_cst_2
  let main_v11 : IVec S1x17 1 := cmpf .olt main_v9 main_v10
  let main_c_3 : IVec S_ 1 := constantI S_ 1 1#1
  let main_v12 : IVec S_ 1 := (fun x v => Host.reduce IntOp.andi x v reducesTo_S1x17_S_d0_1 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg5 main_arg6 main_arg7 main_v13 main_v16
-- ==== Kernel.lean ====
abbrev S500000x17 : Shape := ⟨2, ![500000, 17]⟩
abbrev S2x16000000 : Shape := ⟨2, ![2, 16000000]⟩
abbrev S16000000 : Shape := ⟨1, ![16000000]⟩
abbrev S1x17 : Shape := ⟨2, ![1, 17]⟩
abbrev S1 : Shape := ⟨1, ![1]⟩
abbrev S1x1 : Shape := ⟨2, ![1, 1]⟩
abbrev S1x16000000 : Shape := ⟨2, ![1, 16000000]⟩
abbrev S2x17 : Shape := ⟨2, ![2, 17]⟩
abbrev S500000x2 : Shape := ⟨2, ![500000, 2]⟩
abbrev S2000x17 : Shape := ⟨2, ![2000, 17]⟩
abbrev S2000x2 : Shape := ⟨2, ![2000, 2]⟩
abbrev S17x2 : Shape := ⟨2, ![17, 2]⟩
abbrev S500000x1 : Shape := ⟨2, ![500000, 1]⟩
abbrev S500000 : Shape := ⟨1, ![500000]⟩
abbrev S_ : Shape := ⟨0, ![]⟩
abbrev S16000000x1 : Shape := ⟨2, ![16000000, 1]⟩
abbrev S2000x1 : Shape := ⟨2, ![2000, 1]⟩

abbrev nBuf : Space → Nat
  | .hbm => 42
  | .vmem => 16
  | .smem => 0
  | _ => 0

abbrev bufTy : (tb : Table) → Fin (tcTables nBuf tb) → BufTy
  | .hbm, ⟨0, _⟩ => ⟨S500000x17, .f32⟩
  | .hbm, ⟨1, _⟩ => ⟨S2x16000000, .i32⟩
  | .hbm, ⟨2, _⟩ => ⟨S16000000, .f32⟩
  | .hbm, ⟨3, _⟩ => ⟨S1x17, .f32⟩
  | .hbm, ⟨4, _⟩ => ⟨S1, .f32⟩
  | .hbm, ⟨5, _⟩ => ⟨S1x17, .f32⟩
  | .hbm, ⟨6, _⟩ => ⟨S1x1, .f32⟩
  | .hbm, ⟨7, _⟩ => ⟨S1, .f32⟩
  | .hbm, ⟨8, _⟩ => ⟨S1x16000000, .i32⟩
  | .hbm, ⟨9, _⟩ => ⟨S16000000, .i32⟩
  | .hbm, ⟨10, _⟩ => ⟨S1x16000000, .i32⟩
  | .hbm, ⟨11, _⟩ => ⟨S16000000, .i32⟩
  | .hbm, ⟨12, _⟩ => ⟨S2x17, .f32⟩
  | .hbm, ⟨13, _⟩ => ⟨S500000x2, .f32⟩
  | .hbm, ⟨14, _⟩ => ⟨S500000x1, .f32⟩
  | .hbm, ⟨15, _⟩ => ⟨S500000x1, .f32⟩
  | .hbm, ⟨16, _⟩ => ⟨S500000, .f32⟩
  | .hbm, ⟨17, _⟩ => ⟨S_, .i32⟩
  | .hbm, ⟨18, _⟩ => ⟨S16000000, .i32⟩
  | .hbm, ⟨19, _⟩ => ⟨S16000000, .i1⟩
  | .hbm, ⟨20, _⟩ => ⟨S_, .i32⟩
  | .hbm, ⟨21, _⟩ => ⟨S16000000, .i32⟩
  | .hbm, ⟨22, _⟩ => ⟨S16000000, .i32⟩
  | .hbm, ⟨23, _⟩ => ⟨S16000000, .i32⟩
  | .hbm, ⟨24, _⟩ => ⟨S16000000x1, .i32⟩
  | .hbm, ⟨25, _⟩ => ⟨S16000000, .f32⟩
  | .hbm, ⟨26, _⟩ => ⟨S_, .f32⟩
  | .hbm, ⟨27, _⟩ => ⟨S500000, .f32⟩
  | .hbm, ⟨28, _⟩ => ⟨S16000000x1, .i32⟩
  | .hbm, ⟨29, _⟩ => ⟨S500000, .f32⟩
  | .hbm, ⟨30, _⟩ => ⟨S500000x1, .f32⟩
  | .hbm, ⟨31, _⟩ => ⟨S_, .i32⟩
  | .hbm, ⟨32, _⟩ => ⟨S16000000, .i32⟩
  | .hbm, ⟨33, _⟩ => ⟨S_, .i32⟩
  | .hbm, ⟨34, _⟩ => ⟨S500000, .i32⟩
  | .hbm, ⟨35, _⟩ => ⟨S16000000x1, .i32⟩
  | .hbm, ⟨36, _⟩ => ⟨S500000, .i32⟩
  | .hbm, ⟨37, _⟩ => ⟨S500000, .f32⟩
  | .hbm, ⟨38, _⟩ => ⟨S500000x1, .f32⟩
  | .hbm, ⟨39, _⟩ => ⟨S1x1, .f32⟩
  | .hbm, ⟨40, _⟩ => ⟨S1x1, .f32⟩
  | .hbm, ⟨41, _⟩ => ⟨S500000x1, .f32⟩
  | .local _ .vmem, ⟨0, _⟩ => ⟨S2000x17, .f32⟩
  | .local _ .vmem, ⟨1, _⟩ => ⟨S2000x17, .f32⟩
  | .local _ .vmem, ⟨2, _⟩ => ⟨S2x17, .f32⟩
  | .local _ .vmem, ⟨3, _⟩ => ⟨S2000x2, .f32⟩
  | .local _ .vmem, ⟨4, _⟩ => ⟨S2000x2, .f32⟩
  | .local _ .vmem, ⟨5, _⟩ => ⟨S2000x1, .f32⟩
  | .local _ .vmem, ⟨6, _⟩ => ⟨S2000x1, .f32⟩
  | .local _ .vmem, ⟨7, _⟩ => ⟨S2000x1, .f32⟩
  | .local _ .vmem, ⟨8, _⟩ => ⟨S2000x1, .f32⟩
  | .local _ .vmem, ⟨9, _⟩ => ⟨S2000x1, .f32⟩
  | .local _ .vmem, ⟨10, _⟩ => ⟨S2000x1, .f32⟩
  | .local _ .vmem, ⟨11, _⟩ => ⟨S1x1, .f32⟩
  | .local _ .vmem, ⟨12, _⟩ => ⟨S1x1, .f32⟩
  | .local _ .vmem, ⟨13, _⟩ => ⟨S1x1, .f32⟩
  | .local _ .vmem, ⟨14, _⟩ => ⟨S2000x1, .f32⟩
  | .local _ .vmem, ⟨15, _⟩ => ⟨S2000x1, .f32⟩
  | _, _ => ⟨S500000x17, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_c_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x17 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x17 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  concatenates_S1x17_S1x17_S2x17_d0 : Shape.Concatenates [S1x17, S1x17] S2x17 0
  inb_S2000x17_S2000x17_0_0 : ∀ a, (![0, 0] : Fin 2 → Nat) a + S2000x17.size a ≤ S2000x17.size a
  h_S2000x17 : 0 < S2000x17.numel
  inb_S2x17_S2x17_0_0 : ∀ a, (![0, 0] : Fin 2 → Nat) a + S2x17.size a ≤ S2x17.size a
  h_S2x17 : 0 < S2x17.numel
  shapeCasts_S2x17_S2x17 : S2x17.ShapeCasts S2x17
  transposes_S2x17_p1_0_S17x2 : S2x17.Transposes [1, 0] S17x2
  inb_S2000x2_S2000x2_0_0 : ∀ a, (![0, 0] : Fin 2 → Nat) a + S2000x2.size a ≤ S2000x2.size a
  h_S2000x2 : 0 < S2000x2.numel
  slices_S500000x2_S500000x1_0_0 : S500000x2.Slices ![0, 0] S500000x1
  slices_S500000x2_S500000x1_0_1 : S500000x2.Slices ![0, 1] S500000x1
  shapeCasts_S500000x1_S500000 : S500000x1.ShapeCasts S500000
  bcast_S_S16000000 : S_.BroadcastsInDim S16000000 (![] : Fin 0 → Fin S16000000.rank)
  bcast_S16000000_S16000000x1_0 : S16000000.BroadcastsInDim S16000000x1 (![0] : Fin 1 → Fin S16000000x1.rank)
  bcast_S_S500000 : S_.BroadcastsInDim S500000 (![] : Fin 0 → Fin S500000.rank)
  bcast_S500000_S500000x1_0 : S500000.BroadcastsInDim S500000x1 (![0] : Fin 1 → Fin S500000x1.rank)
  shapeCasts_S1_S1x1 : S1.ShapeCasts S1x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  dot_S2000x17_S17x2_S2000x2_1_0_0_1_n_n_wf : DotDims.WF S2000x17 S17x2 S2000x2 [1] [0] [0] [1] [] []
  gather_S500000_S16000000x1_S16000000_n_0_n_n_0_1_1_wf : GatherDims.WF S500000 S16000000x1 S16000000 [] [0] [] [0] [] 1 ![1]
  scatter_S500000_S16000000x1_S16000000_n_0_0_1_wf : ScatterDims.WF S500000 S16000000x1 S16000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x17.size a ≤ S500000x17.size a
  hwx0_0 : ∀ i : grid0.Coords, EltTy.bits .f32 = 32 ∨ (Rect.block (s := S500000x17) S2000x17.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x17.size a ≤ S2x17.size a
  hwx0_1 : ∀ i : grid0.Coords, EltTy.bits .f32 = 32 ∨ (Rect.block (s := S2x17) S2x17.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x2.size a ≤ S500000x2.size a
  hwx0_2 : ∀ i : grid0.Coords, EltTy.bits .f32 = 32 ∨ (Rect.block (s := S500000x2) S2000x2.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x1.size a ≤ S500000x1.size a
  hwx1_0 : ∀ i : grid1.Coords, EltTy.bits .f32 = 32 ∨ (Rect.block (s := S500000x1) S2000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S500000x1.size a
  hwx1_1 : ∀ i : grid1.Coords, EltTy.bits .f32 = 32 ∨ (Rect.block (s := S500000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S500000x1.size a
  hwx1_2 : ∀ i : grid1.Coords, EltTy.bits .f32 = 32 ∨ (Rect.block (s := S500000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x1.size a ≤ S500000x1.size a
  hwx1_6 : ∀ i : grid1.Coords, EltTy.bits .f32 = 32 ∨ (Rect.block (s := S500000x1) S2000x1.size (cc1_transform_6 i) (hinb1_6 i)).WholeWords (EltTy.packing .f32)

variable [Facts₀]

def dot_S2000x17_S17x2_S2000x2_1_0_0_1_n_n : DotDims S2000x17 S17x2 S2000x2 where
  lhsContracting := [1]
  rhsContracting := [0]
  lhsNonContracting := [0]
  rhsNonContracting := [1]
  lhsBatch := []
  rhsBatch := []
  wf := dot_S2000x17_S17x2_S2000x2_1_0_0_1_n_n_wf
def gather_S500000_S16000000x1_S16000000_n_0_n_n_0_1_1 : GatherDims S500000 S16000000x1 S16000000 where
  offsetDims := []
  collapsedSliceDims := [0]
  operandBatchingDims := []
  startIndicesBatchingDims := []
  startIndexMap := [0]
  indexVectorDim := 1
  sliceSizes := ![1]
  wf := gather_S500000_S16000000x1_S16000000_n_0_n_n_0_1_1_wf
def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf

abbrev win0_0 : Pipeline.Window sig grid0 :=
  Pipeline.Window.ofSpec (Memref.whole main_arg0) S2000x17.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2x17.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2000x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S2000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S2000x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S500000x17 : Shape := ⟨2, ![500000, 17]⟩
abbrev S2x16000000 : Shape := ⟨2, ![2, 16000000]⟩
abbrev S16000000 : Shape := ⟨1, ![16000000]⟩
abbrev S1x17 : Shape := ⟨2, ![1, 17]⟩
abbrev S1 : Shape := ⟨1, ![1]⟩
abbrev S1x1 : Shape := ⟨2, ![1, 1]⟩
abbrev S1x16000000 : Shape := ⟨2, ![1, 16000000]⟩
abbrev S17x1 : Shape := ⟨2, ![17, 1]⟩
abbrev S500000x1 : Shape := ⟨2, ![500000, 1]⟩
abbrev S_ : Shape := ⟨0, ![]⟩
abbrev S16000000x1 : Shape := ⟨2, ![16000000, 1]⟩
abbrev S16000000x2 : Shape := ⟨2, ![16000000, 2]⟩
abbrev S500000 : Shape := ⟨1, ![500000]⟩

abbrev nBuf : Space → Nat
  | .hbm => 69
  | .vmem => 0
  | .smem => 0
  | _ => 0

abbrev bufTy : (tb : Table) → Fin (tcTables nBuf tb) → BufTy
  | .hbm, ⟨0, _⟩ => ⟨S500000x17, .f32⟩
  | .hbm, ⟨1, _⟩ => ⟨S2x16000000, .i32⟩
  | .hbm, ⟨2, _⟩ => ⟨S16000000, .f32⟩
  | .hbm, ⟨3, _⟩ => ⟨S1x17, .f32⟩
  | .hbm, ⟨4, _⟩ => ⟨S1, .f32⟩
  | .hbm, ⟨5, _⟩ => ⟨S1x17, .f32⟩
  | .hbm, ⟨6, _⟩ => ⟨S1x1, .f32⟩
  | .hbm, ⟨7, _⟩ => ⟨S1, .f32⟩
  | .hbm, ⟨8, _⟩ => ⟨S1x16000000, .i32⟩
  | .hbm, ⟨9, _⟩ => ⟨S16000000, .i32⟩
  | .hbm, ⟨10, _⟩ => ⟨S1x16000000, .i32⟩
  | .hbm, ⟨11, _⟩ => ⟨S16000000, .i32⟩
  | .hbm, ⟨12, _⟩ => ⟨S17x1, .f32⟩
  | .hbm, ⟨13, _⟩ => ⟨S500000x1, .f32⟩
  | .hbm, ⟨14, _⟩ => ⟨S_, .i32⟩
  | .hbm, ⟨15, _⟩ => ⟨S16000000, .i32⟩
  | .hbm, ⟨16, _⟩ => ⟨S16000000, .i1⟩
  | .hbm, ⟨17, _⟩ => ⟨S_, .i32⟩
  | .hbm, ⟨18, _⟩ => ⟨S16000000, .i32⟩
  | .hbm, ⟨19, _⟩ => ⟨S16000000, .i32⟩
  | .hbm, ⟨20, _⟩ => ⟨S16000000, .i32⟩
  | .hbm, ⟨21, _⟩ => ⟨S_, .i32⟩
  | .hbm, ⟨22, _⟩ => ⟨S16000000, .i32⟩
  | .hbm, ⟨23, _⟩ => ⟨S16000000, .i32⟩
  | .hbm, ⟨24, _⟩ => ⟨S16000000x1, .i32⟩
  | .hbm, ⟨25, _⟩ => ⟨S16000000x1, .i32⟩
  | .hbm, ⟨26, _⟩ => ⟨S16000000x2, .i32⟩
  | .hbm, ⟨27, _⟩ => ⟨S16000000, .f32⟩
  | .hbm, ⟨28, _⟩ => ⟨S_, .f32⟩
  | .hbm, ⟨29, _⟩ => ⟨S500000, .f32⟩
  | .hbm, ⟨30, _⟩ => ⟨S16000000x1, .i32⟩
  | .hbm, ⟨31, _⟩ => ⟨S500000, .f32⟩
  | .hbm, ⟨32, _⟩ => ⟨S_, .f32⟩
  | .hbm, ⟨33, _⟩ => ⟨S16000000, .f32⟩
  | .hbm, ⟨34, _⟩ => ⟨S_, .f32⟩
  | .hbm, ⟨35, _⟩ => ⟨S500000, .f32⟩
  | .hbm, ⟨36, _⟩ => ⟨S16000000x1, .i32⟩
  | .hbm, ⟨37, _⟩ => ⟨S500000, .f32⟩
  | .hbm, ⟨38, _⟩ => ⟨S_, .f32⟩
  | .hbm, ⟨39, _⟩ => ⟨S500000, .f32⟩
  | .hbm, ⟨40, _⟩ => ⟨S500000, .f32⟩
  | .hbm, ⟨41, _⟩ => ⟨S500000, .f32⟩
  | .hbm, ⟨42, _⟩ => ⟨S500000x1, .f32⟩
  | .hbm, ⟨43, _⟩ => ⟨S1x1, .f32⟩
  | .hbm, ⟨44, _⟩ => ⟨S500000x1, .f32⟩
  | .hbm, ⟨45, _⟩ => ⟨S500000x1, .f32⟩
  | .hbm, ⟨46, _⟩ => ⟨S17x1, .f32⟩
  | .hbm, ⟨47, _⟩ => ⟨S500000x1, .f32⟩
  | .hbm, ⟨48, _⟩ => ⟨S500000x1, .f32⟩
  | .hbm, ⟨49, _⟩ => ⟨S_, .f32⟩
  | .hbm, ⟨50, _⟩ => ⟨S500000x1, .f32⟩
  | .hbm, ⟨51, _⟩ => ⟨S500000x1, .i1⟩
  | .hbm, ⟨52, _⟩ => ⟨S_, .f32⟩
  | .hbm, ⟨53, _⟩ => ⟨S500000x1, .f32⟩
  | .hbm, ⟨54, _⟩ => ⟨S500000x1, .i1⟩
  | .hbm, ⟨55, _⟩ => ⟨S_, .f32⟩
  | .hbm, ⟨56, _⟩ => ⟨S_, .f32⟩
  | .hbm, ⟨57, _⟩ => ⟨S500000x1, .f32⟩
  | .hbm, ⟨58, _⟩ => ⟨S500000x1, .f32⟩
  | .hbm, ⟨59, _⟩ => ⟨S500000x1, .f32⟩
  | .hbm, ⟨60, _⟩ => ⟨S_, .f32⟩
  | .hbm, ⟨61, _⟩ => ⟨S500000x1, .f32⟩
  | .hbm, ⟨62, _⟩ => ⟨S500000x1, .f32⟩
  | .hbm, ⟨63, _⟩ => ⟨S500000x1, .f32⟩
  | .hbm, ⟨64, _⟩ => ⟨S1x1, .f32⟩
  | .hbm, ⟨65, _⟩ => ⟨S500000x1, .f32⟩
  | .hbm, ⟨66, _⟩ => ⟨S1x1, .f32⟩
  | .hbm, ⟨67, _⟩ => ⟨S500000x1, .f32⟩
  | .hbm, ⟨68, _⟩ => ⟨S500000x1, .f32⟩
  | _, _ => ⟨S500000x17, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_cst_0 : Ref sig .tc := ⟨.hbm, 52, rfl⟩
abbrev main_call0_v2 : Ref sig .tc := ⟨.hbm, 53, rfl⟩
abbrev main_call0_v3 : Ref sig .tc := ⟨.hbm, 54, rfl⟩
abbrev main_call0_cst_1 : Ref sig .tc := ⟨.hbm, 55, rfl⟩
abbrev main_call0_call0_v0 : Ref sig .tc := ⟨.hbm, 56, rfl⟩
abbrev main_call0_call0_v1 : Ref sig .tc := ⟨.hbm, 57, rfl⟩
abbrev main_call0_v4 : Ref sig .tc := ⟨.hbm, 58, rfl⟩
abbrev main_call0_v5 : Ref sig .tc := ⟨.hbm, 59, rfl⟩
abbrev main_call0_cst_2 : Ref sig .tc := ⟨.hbm, 60, rfl⟩
abbrev main_call0_v6 : Ref sig .tc := ⟨.hbm, 61, rfl⟩
abbrev main_call0_v7 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  transposes_S1x17_S17x1_1_0 : S1x17.Transposes [1, 0] S17x1
  bcast_S_S16000000 : S_.BroadcastsInDim S16000000 (![] : Fin 0 → Fin S16000000.rank)
  bcast_S16000000_S16000000x1_0 : S16000000.BroadcastsInDim S16000000x1 (![0] : Fin 1 → Fin S16000000x1.rank)
  concatenates_S16000000x1_S16000000x1_S16000000x2_d1 : Shape.Concatenates [S16000000x1, S16000000x1] S16000000x2 1
  bcast_S_S500000 : S_.BroadcastsInDim S500000 (![] : Fin 0 → Fin S500000.rank)
  bcast_S500000_S500000x1_0 : S500000.BroadcastsInDim S500000x1 (![0] : Fin 1 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  transposes_S1x1_S1x1_1_0 : S1x1.Transposes [1, 0] S1x1
  dot_S500000x17_S17x1_S500000x1_1_0_0_1_n_n_wf : DotDims.WF S500000x17 S17x1 S500000x1 [1] [0] [0] [1] [] []
  gather_S500000x1_S16000000x2_S16000000_n_01_n_n_01_1_11_wf : GatherDims.WF S500000x1 S16000000x2 S16000000 [] [0, 1] [] [0, 1] [] 1 ![1, 1]
  scatter_S500000_S16000000x1_S16000000_n_0_0_1_wf : ScatterDims.WF S500000 S16000000x1 S16000000 [] [0] [0] 1
  dot_S500000x1_S1x1_S500000x1_1_0_0_1_n_n_wf : DotDims.WF S500000x1 S1x1 S500000x1 [1] [0] [0] [1] [] []

variable [Facts₀]

def dot_S500000x17_S17x1_S500000x1_1_0_0_1_n_n : DotDims S500000x17 S17x1 S500000x1 where
  lhsContracting := [1]
  rhsContracting := [0]
  lhsNonContracting := [0]
  rhsNonContracting := [1]
  lhsBatch := []
  rhsBatch := []
  wf := dot_S500000x17_S17x1_S500000x1_1_0_0_1_n_n_wf
def gather_S500000x1_S16000000x2_S16000000_n_01_n_n_01_1_11 : GatherDims S500000x1 S16000000x2 S16000000 where
  offsetDims := []
  collapsedSliceDims := [0, 1]
  operandBatchingDims := []
  startIndicesBatchingDims := []
  startIndexMap := [0, 1]
  indexVectorDim := 1
  sliceSizes := ![1, 1]
  wf := gather_S500000x1_S16000000x2_S16000000_n_01_n_n_01_1_11_wf
def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf
def dot_S500000x1_S1x1_S500000x1_1_0_0_1_n_n : DotDims S500000x1 S1x1 S500000x1 where
  lhsContracting := [1]
  rhsContracting := [0]
  lhsNonContracting := [0]
  rhsNonContracting := [1]
  lhsBatch := []
  rhsBatch := []
  wf := dot_S500000x1_S1x1_S500000x1_1_0_0_1_n_n_wf

class Facts : Prop extends Facts₀ where

variable [Facts]
-- ==== Proof.Spec.lean ====
/-
  The function both programs compute, stated once over the argument arrays, index by index, on the extended reals.

  A graph of 500000 nodes with 17 features each and 16000000 directed edges (row 0 of the edge array the source node, row 1
  the destination node). Node n's result is

      elu ( (Σ over the edges e into n of  x[src e] · w_l) / max (number of edges into n) 1  +  b_l  +  x[n] · w_r ) · w_o + b_o

  where `elu h = h` for `h > 0` and `exp h − 1` otherwise. A source index is read the way the array indexing of both
  programs reads it: a negative one has 500000 added, and the result is clamped into the node range. A destination index
  outside the node range contributes to no node (the accumulating scatter drops it): that is the scatter's own rule
  (`ScatterDims.resultIdx?`), and the sum and the count below are both taken over exactly the edges it keeps.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-! ## The shapes -/

abbrev SNx17 : Shape := ⟨2, ![500000, 17]⟩
abbrev SNx2 : Shape := ⟨2, ![500000, 2]⟩
abbrev SNx1 : Shape := ⟨2, ![500000, 1]⟩
abbrev SN : Shape := ⟨1, ![500000]⟩
abbrev S2xE : Shape := ⟨2, ![2, 16000000]⟩
abbrev SE : Shape := ⟨1, ![16000000]⟩
abbrev SEx1 : Shape := ⟨2, ![16000000, 1]⟩
abbrev S1x17 : Shape := ⟨2, ![1, 17]⟩
abbrev S2x17 : Shape := ⟨2, ![2, 17]⟩
abbrev S1x1 : Shape := ⟨2, ![1, 1]⟩
abbrev S1 : Shape := ⟨1, ![1]⟩

/-- The accumulating scatters' dimension numbers: update e goes to the operand index its one-word scatter index names. -/
def dS : ScatterDims SN SEx1 SE where
  updateWindowDims := []
  insertedWindowDims := [0]
  scatterDimsToOperandDims := [0]
  indexVectorDim := 1
  wf := by decide

/-! ## One node -/

/-- One node's result from its aggregate `a`, its in-degree `cn`, its own projection `p` and the three scalars: the mean
    (the aggregate over the in-degree, an isolated node's degree read as 1), the bias and the node's own projection added
    in that order, the exponential linear unit, the output scale and bias. -/
def nodeOut (a cn p bl wo bo : EReal) : EReal :=
  Scalar.select (Ideal.cmp .ogt (Ideal.div a (max cn 1) + bl + p) 0) (Ideal.div a (max cn 1) + bl + p)
    (Ideal.exp (Ideal.div a (max cn 1) + bl + p) - 1) * wo + bo

/-- Row `n` of the feature array against the one row of a weight array: a sum of 17 products. -/
def rowDot (x : SNx17.Idx → EReal) (w : S1x17.Idx → EReal) (n : Fin 500000) : EReal :=
  ∑ k : Fin 17, x (ix2 n k) * w (ix2 (0 : Fin 1) k)

/-- A source word as the array indexing reads it: a negative word has 500000 added. -/
def wrapWord (s : BitVec 32) : BitVec 32 :=
  Scalar.select (IntOp.cmpi .slt s 0#32) (IntOp.addi s 500000#32) s

/-- Edge `e`'s source node: row 0 of the edge array, wrapped, read signed and clamped into the node range. -/
def srcNode (ei : S2xE.Idx → BitVec 32) (e : Fin 16000000) : Fin 500000 :=
  ⟨min (wrapWord (ei (ix2 (0 : Fin 2) e))).toInt.toNat 499999, by omega⟩

/-- The destination words as the column the scatters take them in: entry `(e, 0)` is row 1 of the edge array at `e`. -/
def dstCol (ei : S2xE.Idx → BitVec 32) : SEx1.Idx → BitVec 32 :=
  fun j => ei (ix2 (1 : Fin 2) ⟨(j 0).val, idx2_lt0 j⟩)

/-- Edge `e`'s message: its source node's row against the neighbour weights. -/
def msg (x : SNx17.Idx → EReal) (wl : S1x17.Idx → EReal) (ei : S2xE.Idx → BitVec 32) : SE.Idx → EReal :=
  fun e => rowDot x wl (srcNode ei ⟨(e 0).val, (e 0).isLt⟩)

/-- THE RESULT, node by node: the messages and the ones accumulated over the edges the scatter `d` keeps for the node. -/
def G (d : ScatterDims SN SEx1 SE) (x : SNx17.Idx → EReal) (ei : S2xE.Idx → BitVec 32) (wl : S1x17.Idx → EReal)
    (bl : S1.Idx → EReal) (wr : S1x17.Idx → EReal) (wo : S1x1.Idx → EReal) (bo : S1.Idx → EReal) : SNx1.Idx → EReal :=
  fun i =>
    nodeOut
      (Ideal.hostScatterAdd d (fun _ => (0 : EReal)) (dstCol ei) (msg x wl ei) (ix1 ⟨(i 0).val, idx2_lt0 i⟩))
      (Ideal.hostScatterAdd d (fun _ => (0 : EReal)) (dstCol ei) (fun _ => (1 : EReal)) (ix1 ⟨(i 0).val, idx2_lt0 i⟩))
      (rowDot x wr ⟨(i 0).val, idx2_lt0 i⟩)
      (bl (ix1 (0 : Fin 1))) (wo (ix2 (0 : Fin 1) (0 : Fin 1))) (bo (ix1 (0 : Fin 1)))

end Cert.Sage

end
-- ==== Proof.KRegion0.lean ====
/-
  The projection region's value. The first kernel runs once per block of 2000 nodes: it loads the block's [2000 × 17]
  features and the whole [2 × 17] stacked weight array, multiplies the features by the transposed weights into a zero
  accumulator, and stores the [2000 × 2] product. The 250 blocks tile the [500000 × 2] result, so after the region entry
  (n, r) of the result is row n of the features against row r of the stacked weights: a sum of 17 products.
-/
import proofs.«411780_j40157944218343_4_alg».proof.Proof.Gen.KernelIdeal.Frame
import proofs.«411780_j40157944218343_4_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Sage

open Idealize.ShloMosaic Idealize.ShloMosaic.TcCoe Idealize.SL.Sem Idealize.ShloMosaic.ValueIdx
open Cert.KernelIdeal Cert.KernelIdeal.Gen
open Idealize.ShloMosaic.Pipeline (Dat Cfg Window)

/-- Entry (n, r) of the projection: row n of the features against row r of the stacked weights. -/
def proj2 (xa : S500000x17.Idx → EReal) (wa : S2x17.Idx → EReal) : S500000x2.Idx → EReal :=
  fun i => ∑ k : Fin 17, xa (ix2 (⟨(i 0).val, idx2_lt0 i⟩ : Fin 500000) k) * wa (ix2 (⟨(i 1).val, idx2_lt1 i⟩ : Fin 2) k)

/-! ## The product's operand indices

The product contracts axis 1 of the features block with axis 0 of the transposed weights. At result entry `(p, q)` and
contraction position `k` it reads the features at `(p, k)` and the transposed weights at `(k, q)`. -/

/-- The left operand's row is the result's row. -/
theorem project_lhs_row (i : S2000x2.Idx) (κ : dot_S2000x17_S17x2_S2000x2_1_0_0_1_n_n.contr.Idx) :
    (dot_S2000x17_S17x2_S2000x2_1_0_0_1_n_n.lhsIdx i κ 0).val = (i 0).val := by
  unfold DotDims.lhsIdx
  rw [dif_neg (show ¬(0 : Fin S2000x17.rank) ∈ dot_S2000x17_S17x2_S2000x2_1_0_0_1_n_n.lhsBatch by decide),
    dif_pos (show (0 : Fin S2000x17.rank) ∈ dot_S2000x17_S17x2_S2000x2_1_0_0_1_n_n.lhsNonContracting by decide)]
  rfl

/-- The left operand's column is the contraction position. -/
theorem project_lhs_col (i : S2000x2.Idx) (κ : dot_S2000x17_S17x2_S2000x2_1_0_0_1_n_n.contr.Idx) :
    (dot_S2000x17_S17x2_S2000x2_1_0_0_1_n_n.lhsIdx i κ 1).val = (κ ⟨0, by decide⟩).val :=
  dot_S2000x17_S17x2_S2000x2_1_0_0_1_n_n.lhsIdx_val_of_single rfl i κ

/-- The right operand's row is the contraction position. -/
theorem project_rhs_row (i : S2000x2.Idx) (κ : dot_S2000x17_S17x2_S2000x2_1_0_0_1_n_n.contr.Idx) :
    (dot_S2000x17_S17x2_S2000x2_1_0_0_1_n_n.rhsIdx i κ 0).val = (κ ⟨0, by decide⟩).val :=
  dot_S2000x17_S17x2_S2000x2_1_0_0_1_n_n.rhsIdx_val_of_single rfl i κ

/-- The right operand's column is the result's column. -/
theorem project_rhs_col (i : S2000x2.Idx) (κ : dot_S2000x17_S17x2_S2000x2_1_0_0_1_n_n.contr.Idx) :
    (dot_S2000x17_S17x2_S2000x2_1_0_0_1_n_n.rhsIdx i κ 1).val = (i 1).val := by
  unfold DotDims.rhsIdx
  rw [dif_neg (show ¬(1 : Fin S17x2.rank) ∈ dot_S2000x17_S17x2_S2000x2_1_0_0_1_n_n.rhsBatch by decide),
    dif_pos (show (1 : Fin S17x2.rank) ∈ dot_S2000x17_S17x2_S2000x2_1_0_0_1_n_n.rhsNonContracting by decide)]
  rfl

/-- THE BLOCK PRODUCT AT AN ENTRY: entry `(p, q)` of what the body stores is row `p` of the features block against row
    `q` of the weights (the transpose turns the weights' rows into the columns the product contracts with). -/
theorem project_block_apply (x0 : Vec Ideal S2000x17 .f32) (x1 : Vec Ideal S2x17 .f32) (p : Fin 2000) (q : Fin 2) :
    k0_pay1 (F := Ideal) x0 x1 (ix2 p q) = ∑ k : Fin 17, x0 (ix2 p k) * x1 (ix2 q k) := by
  unfold k0_pay1
  simp only [matmul]
  rw [Ideal.matmul_constant_zero_apply,
    ← Equiv.sum_comp (contrEquiv1 dot_S2000x17_S17x2_S2000x2_1_0_0_1_n_n 17 rfl rfl).symm]
  refine Finset.sum_congr rfl fun k _ => ?_
  have hk := contrEquiv1_symm_val dot_S2000x17_S17x2_S2000x2_1_0_0_1_n_n 17 rfl rfl k
  have el : dot_S2000x17_S17x2_S2000x2_1_0_0_1_n_n.lhsIdx (ix2 p q)
      ((contrEquiv1 dot_S2000x17_S17x2_S2000x2_1_0_0_1_n_n 17 rfl rfl).symm k) = ix2 p k :=
    funext fun a => Fin.ext (by
      match a with
      | ⟨0, _⟩ => exact project_lhs_row _ _
      | ⟨1, _⟩ => exact (project_lhs_col _ _).trans hk)
  have er : dot_S2000x17_S17x2_S2000x2_1_0_0_1_n_n.rhsIdx (ix2 p q)
      ((contrEquiv1 dot_S2000x17_S17x2_S2000x2_1_0_0_1_n_n 17 rfl rfl).symm k) = ix2 k q :=
    funext fun a => Fin.ext (by
      match a with
      | ⟨0, _⟩ => exact (project_rhs_row _ _).trans hk
      | ⟨1, _⟩ => exact project_rhs_col _ _)
  rw [el, er, shapeCast_self, transpose_ix2_apply]

/-! ## From the blocks to the array -/

/-- The body's accesses start at the origin of their buffers. -/
theorem project_zero_offsets : (![0, 0] : Fin 2 → Nat) = fun _ => 0 := funext fun a => by fin_cases a <;> rfl

/-- The printed index maps over the 250 points: point `t` takes block row `t` of the features and of the result, and the
    one block of the weights; no window moves along its second axis. -/
theorem project_block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `(p, k)` of point `t`'s features block is entry `(2000 t + p, k)` of the features array. -/
theorem project_features_block (V : (c : Dev nD) → (b : Ref sig .tc) → Buf (Elt Ideal) ((c : Thread nD τ).loc b)) (c : Dev nD)
    (t : Fin cfg0.N) (p : Fin 2000) (k : Fin 17) (n : Fin 500000) (hn : n.val = t.val * 2000 + p.val) :
    (iblk0 (F := Ideal) V c 0 t : Vec Ideal S2000x17 .f32) (ix2 p k) = (V c main_arg0 : S500000x17.Idx → EReal) (ix2 n k) := by
  obtain ⟨e0, e1, -⟩ := project_block_indices t
  unfold iblk0
  rw [View.read_apply]
  show V c main_arg0 _ = V c main_arg0 _
  congr 1
  funext a
  apply Fin.ext
  match a with
  | ⟨0, _⟩ => show win0_0.index t (0 : Fin 2) * 2000 + 1 * p.val = n.val; rw [e0, hn]; omega
  | ⟨1, _⟩ => show win0_0.index t (1 : Fin 2) * 17 + 1 * k.val = k.val; rw [e1]; omega

/-- Every point's weights block is the whole weights array. -/
theorem project_weights_block (V : (c : Dev nD) → (b : Ref sig .tc) → Buf (Elt Ideal) ((c : Thread nD τ).loc b)) (c : Dev nD)
    (t : Fin cfg0.N) (q : Fin 2) (k : Fin 17) :
    (iblk0 (F := Ideal) V c 1 t : Vec Ideal S2x17 .f32) (ix2 q k) = (V c main_v4 : S2x17.Idx → EReal) (ix2 q k) := by
  obtain ⟨-, -, e2, e3, -⟩ := project_block_indices t
  unfold iblk0
  rw [View.read_apply]
  show V c main_v4 _ = V c main_v4 _
  congr 1
  funext a
  apply Fin.ext
  match a with
  | ⟨0, _⟩ => show win0_1.index t (0 : Fin 2) * 2 + 1 * q.val = q.val; rw [e2]; omega
  | ⟨1, _⟩ => show win0_1.index t (1 : Fin 2) * 17 + 1 * k.val = k.val; rw [e3]; omega

/-- The projection at an index whose coordinates are known. -/
theorem proj2_apply_of (xa : S500000x17.Idx → EReal) (wa : S2x17.Idx → EReal) (i : S500000x2.Idx) (n : Fin 500000) (r : Fin 2)
    (h0 : (i 0).val = n.val) (h1 : (i 1).val = r.val) :
    proj2 xa wa i = ∑ k : Fin 17, xa (ix2 n k) * wa (ix2 r k) := by
  unfold proj2
  have e0 : (⟨(i 0).val, idx2_lt0 i⟩ : Fin 500000) = n := Fin.ext h0
  have e1 : (⟨(i 1).val, idx2_lt1 i⟩ : Fin 2) = r := Fin.ext h1
  rw [e0, e1]

/-- WHAT POINT `t` WRITES BACK is block `t` of the projection of the two arrays the region finds. -/
theorem project_flushed_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal) (proj2 (V c main_arg0) (V c main_v4)) := by
  show (cfg0.win 2).cut (grid0.coords t) ((dat0 (F := Ideal) V c).after 2 t) = _
  rw [after0_2]
  unfold out0_2
  rw [View.canon_unit_zero project_zero_offsets]
  simp only [View.ld_unit_zero (S := S2000x17) project_zero_offsets, View.ld_unit_zero (S := S2x17) project_zero_offsets]
  obtain ⟨-, -, -, -, e4, e5⟩ := project_block_indices t
  refine funext fun (j : S2000x2.Idx) => ?_
  obtain ⟨p, q, rfl⟩ : ∃ (p : Fin 2000) (q : Fin 2), j = ix2 p q := ⟨j 0, j 1, eq_ix2 j⟩
  show k0_pay1 (F := Ideal) (iblk0 (F := Ideal) V c 0 t) (iblk0 (F := Ideal) V c 1 t) (ix2 p q)
    = proj2 (V c main_arg0) (V c main_v4) (((cfg0.win 2).blk t).view.emb (ix2 p q))
  rw [project_block_apply]
  have hN : cfg0.N = 250 := N_0
  have hrow : t.val * 2000 + p.val < 500000 := by have := t.isLt; have := p.isLt; omega
  have h0 : ((((cfg0.win 2).blk t).view.emb (ix2 p q)) 0).val = t.val * 2000 + p.val := by
    show win0_2.index t (0 : Fin 2) * 2000 + 1 * p.val = _; rw [e4]; omega
  have h1 : ((((cfg0.win 2).blk t).view.emb (ix2 p q)) 1).val = q.val := by
    show win0_2.index t (1 : Fin 2) * 2 + 1 * q.val = _; rw [e5]; omega
  rw [proj2_apply_of _ _ _ ⟨t.val * 2000 + p.val, hrow⟩ q h0 h1]
  refine Finset.sum_congr rfl fun k _ => ?_
  rw [project_features_block V c t p k ⟨t.val * 2000 + p.val, hrow⟩ rfl, project_weights_block V c t q k]

/-- An index of the result is in point `t`'s block iff each coordinate is in the block's range on its axis. -/
theorem project_mem_block (t : Fin cfg0.N) (i : S500000x2.Idx) :
    i ∈ ((cfg0.win 2).blk t).view.set ↔ ∀ a : Fin 2, win0_2.index t a * S2000x2.size a ≤ (i a).val ∧ (i a).val < win0_2.index t a * S2000x2.size a + S2000x2.size a := by
  show i ∈ ((View.whole main_v5).slice (win0_2.rect t)).set ↔ _
  rw [View.set_slice_whole, Rect.mem_set_unit]
  exact Iff.rfl

/-- The 250 blocks of 2000 rows tile the result: row `n` is in the block of point `n / 2000`. -/
theorem project_cover (i : S500000x2.Idx) : ∃ t : Fin cfg0.N, (cfg0.win 2).flush t = true ∧ i ∈ ((cfg0.win 2).blk t).view.set := by
  have hi0 : (i 0).val < 500000 := (i 0).isLt
  have hi1 : (i 1).val < 2 := (i 1).isLt
  have hN : cfg0.N = 250 := N_0
  have ht : (i 0).val / 2000 < cfg0.N := by omega
  obtain ⟨-, -, -, -, e4, e5⟩ := project_block_indices ⟨(i 0).val / 2000, ht⟩
  refine ⟨⟨(i 0).val / 2000, ht⟩, flush0_2 _, ?_⟩
  rw [project_mem_block]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 2 ≤ (i 1).val
      ∧ (i 1).val < win0_2.index ⟨(i 0).val / 2000, ht⟩ (1 : Fin 2) * 2 + 2
    rw [e5]; omega

/-- THE ARRAY the projection region leaves in its output window: `proj2` of the two arrays the region finds. -/
theorem final0 (V : (c : Dev nD) → (b : Ref sig .tc) → Buf (Elt Ideal) ((c : Thread nD τ).loc b)) (c : Dev nD) :
    (dat0 (F := Ideal) V c).arrAt 2 cfg0.N = proj2 (V c main_arg0) (V c main_v4) :=
  (dat0 (F := Ideal) V c).arrAt_eq_of_cover 2 (proj2 (V c main_arg0) (V c main_v4)) (fun t _ => project_flushed_eq V c t) project_cover

end Cert.KernelIdeal.Sage

end
-- ==== Proof.KRegion1.lean ====
/-
  The finishing region's value. The second kernel runs once per block of 2000 nodes on three [2000 × 1] columns (the
  aggregate, the in-degree, the node's own projection) and three [1 × 1] scalars; everything it does is pointwise, so the
  250 blocks tile the [500000 × 1] result and node n's entry is `nodeOut` of node n's three entries and the scalars.
-/
import proofs.«411780_j40157944218343_4_alg».proof.Proof.Gen.KernelIdeal.Frame
import proofs.«411780_j40157944218343_4_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Sage

open Idealize.ShloMosaic Idealize.ShloMosaic.TcCoe Idealize.SL.Sem Idealize.ShloMosaic.ValueIdx
open Cert.KernelIdeal Cert.KernelIdeal.Gen Cert.Sage
open Idealize.ShloMosaic.Pipeline (Dat Cfg Window)

/-- Node by node: `nodeOut` of the three columns' entries and the three scalars. -/
def fin1 (a cn p : S500000x1.Idx → EReal) (bl wo bo : S1x1.Idx → EReal) : S500000x1.Idx → EReal :=
  fun i => nodeOut (a i) (cn i) (p i) (bl (ix2 (0 : Fin 1) (0 : Fin 1))) (wo (ix2 (0 : Fin 1) (0 : Fin 1)))
    (bo (ix2 (0 : Fin 1) (0 : Fin 1)))

/-! ## One block: the body's stored value, entry by entry -/

/-- The exponential of a column, read at an entry, is the exponential of that entry. -/
theorem exp_at {s : Shape} {φ : FTy} (a : FVec Ideal s φ) (i : s.Idx) : exp a i = Ideal.exp (a i) := rfl

/-- Row `p` of the block the body stores is `nodeOut` of row `p` of the three column blocks and of the three scalars:
    the re-castings of a shape to itself change nothing, each [1 × 1] operand spread over the 2000 rows reads its one
    entry at every row, the splat words are the reals 1 and 0, and every other operation acts entry by entry. The body's
    operands come in the order aggregate, in-degree, own projection, then the bias b_l, the scale w_o, the bias b_o. -/
theorem pay_at (x0 x1 x2 : Vec Ideal S2000x1 .f32) (x3 x4 x5 : Vec Ideal S1x1 .f32) (p : Fin 2000) :
    k1_pay1 x0 x1 x2 x3 x4 x5 (ix2 p (0 : Fin 1))
      = nodeOut (x0 (ix2 p (0 : Fin 1))) (x1 (ix2 p (0 : Fin 1))) (x2 (ix2 p (0 : Fin 1)))
          (x3 (ix2 (0 : Fin 1) (0 : Fin 1))) (x4 (ix2 (0 : Fin 1) (0 : Fin 1))) (x5 (ix2 (0 : Fin 1) (0 : Fin 1))) := by
  have hb : ∀ v : Vec Ideal S1x1 .f32,
      broadcastTo S2000x1 v broadcasts_S1x1_S2000x1 (ix2 p (0 : Fin 1)) = v (ix2 (0 : Fin 1) (0 : Fin 1)) :=
    fun v => broadcastTo_1b_ab_apply v broadcasts_S1x1_S2000x1 p 0
  unfold k1_pay1 nodeOut
  simp only [shapeCast_self]
  simp only [addf_apply, mulf_apply, select_apply, cmpf_apply, subf_apply, divf_apply, maximumf_apply, exp_at,
    broadcast_apply, hb, Ideal.ofBits_def, Ideal.ofBits_one_f32, Ideal.ofBits_zero_f32]
  rfl

/-- The same at any entry of the block: a [2000 × 1] block has one column, so every entry is some row's. -/
theorem pay_apply (x0 x1 x2 : Vec Ideal S2000x1 .f32) (x3 x4 x5 : Vec Ideal S1x1 .f32) (j : S2000x1.Idx) :
    k1_pay1 x0 x1 x2 x3 x4 x5 j
      = nodeOut (x0 j) (x1 j) (x2 j)
          (x3 (ix2 (0 : Fin 1) (0 : Fin 1))) (x4 (ix2 (0 : Fin 1) (0 : Fin 1))) (x5 (ix2 (0 : Fin 1) (0 : Fin 1))) := by
  obtain ⟨p, q, rfl⟩ : ∃ (p : Fin 2000) (q : Fin 1), j = ix2 p q := ⟨j 0, j 1, eq_ix2 j⟩
  obtain rfl : q = 0 := Subsingleton.elim _ _
  exact pay_at x0 x1 x2 x3 x4 x5 p

/-! ## From the blocks to the array -/

/-- The zero offsets of a whole-buffer access, however they are spelt. -/
theorem zero_offsets : (![0, 0] : Fin 2 → Nat) = fun _ => 0 := funext fun a => by fin_cases a <;> rfl

/-- The seven index maps over the 250 points: the three column inputs sit at the output's block, which at point `t`
    is block `t` of the one column; the three scalars are always their whole [1 × 1] array. -/
theorem block_indices : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- WHAT POINT `t` WRITES BACK is block `t` of `fin1` of the six arrays as the region finds them: entry `j` of the
    stored block is `nodeOut` of entry `j` of the three column blocks and the scalars, and an entry of a block sits in
    its array, on each axis, at block index × block size + its own coordinate, so the three column blocks read their
    arrays exactly where the output block lies, and each scalar block reads its array's one entry. -/
theorem flushed_eq (V : (c : Dev nD) → (b : Ref sig .tc) → Buf (Elt Ideal) ((c : Thread nD τ).loc b)) (c : Dev nD)
    (t : Fin cfg1.N) :
    (dat1 (F := Ideal) V c).flushed 6 t
      = ((cfg1.win 6).blk t).view.read (Elt Ideal)
          (fin1 (V c main_v19) (V c main_v25) (V c main_v7) (V c main_v26) (V c main_arg6) (V c main_v27)) := by
  show (cfg1.win 6).cut (grid1.coords t) ((dat1 V c).after 6 t) = _
  rw [after1_6]
  unfold out1_6
  rw [View.canon_unit_zero zero_offsets]
  simp only [View.ld_unit_zero (S := S2000x1) zero_offsets, View.ld_unit_zero (S := S1x1) zero_offsets]
  funext j
  refine (pay_apply (iblk1 V c 0 t) (iblk1 V c 1 t) (iblk1 V c 2 t) (iblk1 V c 3 t) (iblk1 V c 4 t) (iblk1 V c 5 t) j).trans ?_
  obtain ⟨e00, e01, e10, e11, e20, e21, e30, e31, e40, e41, e50, e51, e60, e61⟩ := block_indices t
  show nodeOut (V c main_v19 (((cfg1.win 0).blk t).view.emb j)) (V c main_v25 (((cfg1.win 1).blk t).view.emb j))
        (V c main_v7 (((cfg1.win 2).blk t).view.emb j))
        (V c main_v26 (((cfg1.win 3).blk t).view.emb (ix2 (0 : Fin 1) (0 : Fin 1))))
        (V c main_arg6 (((cfg1.win 4).blk t).view.emb (ix2 (0 : Fin 1) (0 : Fin 1))))
        (V c main_v27 (((cfg1.win 5).blk t).view.emb (ix2 (0 : Fin 1) (0 : Fin 1))))
      = nodeOut (V c main_v19 (((cfg1.win 6).blk t).view.emb j)) (V c main_v25 (((cfg1.win 6).blk t).view.emb j))
        (V c main_v7 (((cfg1.win 6).blk t).view.emb j))
        (V c main_v26 (ix2 (0 : Fin 1) (0 : Fin 1))) (V c main_arg6 (ix2 (0 : Fin 1) (0 : Fin 1)))
        (V c main_v27 (ix2 (0 : Fin 1) (0 : Fin 1)))
  have h0 : ((cfg1.win 0).blk t).view.emb j = ((cfg1.win 6).blk t).view.emb j := by
    funext a; apply Fin.ext
    match a with
    | ⟨0, _⟩ => show win1_0.index t (0 : Fin 2) * 2000 + 1 * (j 0).val = win1_6.index t (0 : Fin 2) * 2000 + 1 * (j 0).val; omega
    | ⟨1, _⟩ => show win1_0.index t (1 : Fin 2) * 1 + 1 * (j 1).val = win1_6.index t (1 : Fin 2) * 1 + 1 * (j 1).val; omega
  have h1 : ((cfg1.win 1).blk t).view.emb j = ((cfg1.win 6).blk t).view.emb j := by
    funext a; apply Fin.ext
    match a with
    | ⟨0, _⟩ => show win1_1.index t (0 : Fin 2) * 2000 + 1 * (j 0).val = win1_6.index t (0 : Fin 2) * 2000 + 1 * (j 0).val; omega
    | ⟨1, _⟩ => show win1_1.index t (1 : Fin 2) * 1 + 1 * (j 1).val = win1_6.index t (1 : Fin 2) * 1 + 1 * (j 1).val; omega
  have h2 : ((cfg1.win 2).blk t).view.emb j = ((cfg1.win 6).blk t).view.emb j := by
    funext a; apply Fin.ext
    match a with
    | ⟨0, _⟩ => show win1_2.index t (0 : Fin 2) * 2000 + 1 * (j 0).val = win1_6.index t (0 : Fin 2) * 2000 + 1 * (j 0).val; omega
    | ⟨1, _⟩ => show win1_2.index t (1 : Fin 2) * 1 + 1 * (j 1).val = win1_6.index t (1 : Fin 2) * 1 + 1 * (j 1).val; omega
  have h3 : ((cfg1.win 3).blk t).view.emb (ix2 (0 : Fin 1) (0 : Fin 1)) = ix2 (0 : Fin 1) (0 : Fin 1) := by
    funext a; apply Fin.ext
    match a with
    | ⟨0, _⟩ => show win1_3.index t (0 : Fin 2) * 1 + 1 * 0 = 0; omega
    | ⟨1, _⟩ => show win1_3.index t (1 : Fin 2) * 1 + 1 * 0 = 0; omega
  have h4 : ((cfg1.win 4).blk t).view.emb (ix2 (0 : Fin 1) (0 : Fin 1)) = ix2 (0 : Fin 1) (0 : Fin 1) := by
    funext a; apply Fin.ext
    match a with
    | ⟨0, _⟩ => show win1_4.index t (0 : Fin 2) * 1 + 1 * 0 = 0; omega
    | ⟨1, _⟩ => show win1_4.index t (1 : Fin 2) * 1 + 1 * 0 = 0; omega
  have h5 : ((cfg1.win 5).blk t).view.emb (ix2 (0 : Fin 1) (0 : Fin 1)) = ix2 (0 : Fin 1) (0 : Fin 1) := by
    funext a; apply Fin.ext
    match a with
    | ⟨0, _⟩ => show win1_5.index t (0 : Fin 2) * 1 + 1 * 0 = 0; omega
    | ⟨1, _⟩ => show win1_5.index t (1 : Fin 2) * 1 + 1 * 0 = 0; omega
  rw [h0, h1, h2, h3, h4, h5]

/-- An entry of the result lies in point `t`'s block exactly when, on each axis, its coordinate is within the block's
    range there. -/
theorem mem_block (t : Fin cfg1.N) (i : S500000x1.Idx) :
    i ∈ ((cfg1.win 6).blk t).view.set
      ↔ ∀ a : Fin 2, win1_6.index t a * S2000x1.size a ≤ (i a).val
          ∧ (i a).val < win1_6.index t a * S2000x1.size a + S2000x1.size a := by
  show i ∈ ((View.whole main_v28).slice (win1_6.rect t)).set ↔ _
  rw [View.set_slice_whole, Rect.mem_set_unit]
  exact Iff.rfl

/-- Row `r` of the result is written by the point `r / 2000`: 250 blocks of 2000 rows tile the 500000 rows, and
    every point writes its block back. -/
theorem covered (i : S500000x1.Idx) :
    ∃ t : Fin cfg1.N, (cfg1.win 6).flush t = true ∧ i ∈ ((cfg1.win 6).blk t).view.set := by
  have hN : cfg1.N = 250 := N_1
  have hi0 : (i 0).val < 500000 := idx2_lt0 i
  have hi1 : (i 1).val < 1 := idx2_lt1 i
  have ht : (i 0).val / 2000 < cfg1.N := by omega
  obtain ⟨-, -, -, -, -, -, -, -, -, -, -, -, e60, e61⟩ := block_indices ⟨(i 0).val / 2000, ht⟩
  have e60' : win1_6.index ⟨(i 0).val / 2000, ht⟩ (0 : Fin 2) = (i 0).val / 2000 := e60
  refine ⟨⟨(i 0).val / 2000, ht⟩, flush1_6 _, ?_⟩
  rw [mem_block]
  intro a
  match a with
  | ⟨0, _⟩ =>
    show win1_6.index ⟨(i 0).val / 2000, ht⟩ (0 : Fin 2) * 2000 ≤ (i 0).val
      ∧ (i 0).val < win1_6.index ⟨(i 0).val / 2000, ht⟩ (0 : Fin 2) * 2000 + 2000
    omega
  | ⟨1, _⟩ =>
    show win1_6.index ⟨(i 0).val / 2000, ht⟩ (1 : Fin 2) * 1 ≤ (i 1).val
      ∧ (i 1).val < win1_6.index ⟨(i 0).val / 2000, ht⟩ (1 : Fin 2) * 1 + 1
    omega

/-- THE ARRAY the finishing region leaves in its output window: `fin1` of the six arrays the region finds. -/
theorem final1 (V : (c : Dev nD) → (b : Ref sig .tc) → Buf (Elt Ideal) ((c : Thread nD τ).loc b)) (c : Dev nD) :
    (dat1 (F := Ideal) V c).arrAt 6 cfg1.N
      = fin1 (V c main_v19) (V c main_v25) (V c main_v7) (V c main_v26) (V c main_arg6) (V c main_v27) :=
  (dat1 (F := Ideal) V c).arrAt_eq_of_cover 6
    (fin1 (V c main_v19) (V c main_v25) (V c main_v7) (V c main_v26) (V c main_arg6) (V c main_v27))
    (fun t _ => flushed_eq V c t) covered

end Cert.KernelIdeal.Sage

end
-- ==== Proof.KStagesA.lean ====
/-
  The kernel program's host operations between its two regions, read at an index: the pieces that move data without
  computing. The stacked weight array is the neighbour weights on row 0 and the root weights on row 1; a column of the
  projection and a row of the edge array are slices; and the message of edge e is the projection's column 0 at the edge's
  source node, the source word wrapped (a negative word has the node count added) and then clamped into the node range by
  the gather.
-/
import proofs.«411780_j40157944218343_4_alg».proof.Proof.Gen.KernelIdeal
import proofs.«411780_j40157944218343_4_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.Lib.IdealHost
import Idealize.ShloMosaic.PureOps.Ideal.Laws

noncomputable section

namespace Cert.KernelIdeal.Sage

open Idealize.ShloMosaic Idealize.ShloMosaic.ValueIdx
open Cert.KernelIdeal Cert.KernelIdeal.Facts₀ Cert.Sage

/-- The stacked weights: row 0 the first array's row, row 1 the second's. -/
theorem stacked_apply (a b : S1x17.Idx → EReal) (r : Fin 2) (k : Fin 17) :
    concatenate S2x17 0 [⟨S1x17, a⟩, ⟨S1x17, b⟩] concatenates_S1x17_S1x17_S2x17_d0 (ix2 r k)
      = if r = 0 then a (ix2 (0 : Fin 1) k) else b (ix2 (0 : Fin 1) k) := by
  -- the row coordinate picks the piece: below the first piece's one row it is the first, else the second, one row less
  match r with
  | ⟨0, h0⟩ =>
    rw [if_pos (show (⟨0, h0⟩ : Fin 2) = 0 from rfl)]
    exact concatenate_pair_apply_left (0 : Fin S2x17.rank) a b concatenates_S1x17_S1x17_S2x17_d0 _ rfl (ix2 (0 : Fin 1) k)
      (fun c => match c with | ⟨0, _⟩ => rfl | ⟨1, _⟩ => rfl)
  | ⟨1, h1⟩ =>
    rw [if_neg (show ¬ (⟨1, h1⟩ : Fin 2) = 0 from fun h => absurd (congrArg Fin.val h) Nat.one_ne_zero)]
    exact concatenate_pair_apply_right (0 : Fin S2x17.rank) a b concatenates_S1x17_S1x17_S2x17_d0 _ rfl rfl (ix2 (0 : Fin 1) k)
      (fun c hc => match c, hc with | ⟨0, _⟩, hc => absurd rfl hc | ⟨1, _⟩, _ => rfl) rfl

/-- Column 0 of a two-column array, kept as a column. -/
theorem col0_apply (P : S500000x2.Idx → EReal) (i : S500000x1.Idx) :
    extractStridedSlice S500000x1 ![0, 0] P slices_S500000x2_S500000x1_0_0 i
      = P (ix2 (⟨(i 0).val, idx2_lt0 i⟩ : Fin 500000) (0 : Fin 2)) := by
  -- a slice reads the operand at the index shifted by the offsets: row the same, column 0 + 0
  refine extractStridedSlice_apply _ P _ i _ (fun a => ?_)
  match a with
  | ⟨0, _⟩ => show (i 0).val = 0 + (i 0).val; omega
  | ⟨1, _⟩ => have := idx2_lt1 i; show 0 = 0 + (i 1).val; omega

/-- Column 1 of a two-column array, kept as a column. -/
theorem col1_apply (P : S500000x2.Idx → EReal) (i : S500000x1.Idx) :
    extractStridedSlice S500000x1 ![0, 1] P slices_S500000x2_S500000x1_0_1 i
      = P (ix2 (⟨(i 0).val, idx2_lt0 i⟩ : Fin 500000) (1 : Fin 2)) := by
  -- row the same, column 1 + 0
  refine extractStridedSlice_apply _ P _ i _ (fun a => ?_)
  match a with
  | ⟨0, _⟩ => show (i 0).val = 0 + (i 0).val; omega
  | ⟨1, _⟩ => have := idx2_lt1 i; show 1 = 1 + (i 1).val; omega

/-- Row 0 of the edge array as a vector: the source words. -/
theorem srcRow_apply (ei : S2x16000000.Idx → BitVec 32) (e : S16000000.Idx) :
    shapeCast S16000000 (extractStridedSlice S1x16000000 ![0, 0] ei slices_S2x16000000_S1x16000000_0_0)
        shapeCasts_S1x16000000_S16000000 e
      = ei (ix2 (0 : Fin 2) (⟨(e 0).val, (e 0).isLt⟩ : Fin 16000000)) := by
  -- the reshape keeps the row-major position: position e of the vector is (0, e) of the one-row array; the slice then
  -- shifts by (0, 0)
  refine (shapeCast_apply _ _ e (ix2 (0 : Fin 1) (⟨(e 0).val, (e 0).isLt⟩ : Fin 16000000)) ?_).trans ?_
  · rw [Shape.rowMajor_val_two, Shape.rowMajor_val_one]
    show 0 * 16000000 + (e 0).val = (e 0).val
    omega
  · refine extractStridedSlice_apply _ ei _ _ _ (fun a => ?_)
    match a with
    | ⟨0, _⟩ => rfl
    | ⟨1, _⟩ => show (e 0).val = 0 + (e 0).val; omega

/-- Row 1 of the edge array as a vector: the destination words. -/
theorem dstRow_apply (ei : S2x16000000.Idx → BitVec 32) (e : S16000000.Idx) :
    shapeCast S16000000 (extractStridedSlice S1x16000000 ![1, 0] ei slices_S2x16000000_S1x16000000_1_0)
        shapeCasts_S1x16000000_S16000000 e
      = ei (ix2 (1 : Fin 2) (⟨(e 0).val, (e 0).isLt⟩ : Fin 16000000)) := by
  -- as for row 0, the slice shifting by (1, 0)
  refine (shapeCast_apply _ _ e (ix2 (0 : Fin 1) (⟨(e 0).val, (e 0).isLt⟩ : Fin 16000000)) ?_).trans ?_
  · rw [Shape.rowMajor_val_two, Shape.rowMajor_val_one]
    show 0 * 16000000 + (e 0).val = (e 0).val
    omega
  · refine extractStridedSlice_apply _ ei _ _ _ (fun a => ?_)
    match a with
    | ⟨0, _⟩ => rfl
    | ⟨1, _⟩ => show (e 0).val = 0 + (e 0).val; omega

/-- The messages' gather at the edge of coordinate `p`, the edge named by its coordinate. The gather of a vector at a
    one-column start table reads the vector at the table's entry, read signed and clamped into the vector; the table's
    entry at row `p` is the wrapped source word of edge `p` (the column broadcast reads the vector at `p`; select,
    comparison and sum act entry by entry; the broadcast constants are constants; the source vector is row 0 of the edge
    array); and the vector read is column 0 of the projection, whose entry `q` is the projection at `(q, 0)`. -/
private theorem msg_stage_at (P : S500000x2.Idx → EReal) (ei : S2x16000000.Idx → BitVec 32) (p : Fin 16000000) :
    Host.gather gather_S500000_S16000000x1_S16000000_n_0_n_n_0_1_1
        (shapeCast S500000 (extractStridedSlice S500000x1 ![0, 0] P slices_S500000x2_S500000x1_0_0) shapeCasts_S500000x1_S500000)
        (broadcastInDim S16000000x1 ![0] bcast_S16000000_S16000000x1_0
          (select
            (cmpi .slt
              (shapeCast S16000000 (extractStridedSlice S1x16000000 ![0, 0] ei slices_S2x16000000_S1x16000000_0_0) shapeCasts_S1x16000000_S16000000)
              (broadcastInDim S16000000 ![] bcast_S_S16000000 (constantI S_ 32 0#32)))
            (addi
              (shapeCast S16000000 (extractStridedSlice S1x16000000 ![0, 0] ei slices_S2x16000000_S1x16000000_0_0) shapeCasts_S1x16000000_S16000000)
              (broadcastInDim S16000000 ![] bcast_S_S16000000 (constantI S_ 32 500000#32)))
            (shapeCast S16000000 (extractStridedSlice S1x16000000 ![0, 0] ei slices_S2x16000000_S1x16000000_0_0) shapeCasts_S1x16000000_S16000000)))
        (Shape.Idx.ofFin p)
      = P (ix2 (srcNode ei p) (0 : Fin 2)) := by
  -- the source vector, and its entry at the edge
  set srcv : S16000000.Idx → BitVec 32 :=
    shapeCast S16000000 (extractStridedSlice S1x16000000 ![0, 0] ei slices_S2x16000000_S1x16000000_0_0) shapeCasts_S1x16000000_S16000000
    with hsrcv
  have hs : srcv (Shape.Idx.ofFin p) = ei (ix2 (0 : Fin 2) p) := srcRow_apply ei (Shape.Idx.ofFin p)
  -- the start word at the edge is the wrapped source word
  set idxv : S16000000.Idx → BitVec 32 :=
    select (cmpi .slt srcv (broadcastInDim S16000000 ![] bcast_S_S16000000 (constantI S_ 32 0#32)))
      (addi srcv (broadcastInDim S16000000 ![] bcast_S_S16000000 (constantI S_ 32 500000#32))) srcv
    with hidxv
  have hidx : idxv (Shape.Idx.ofFin p) = wrapWord (ei (ix2 (0 : Fin 2) p)) := by
    show Scalar.select (IntOp.cmpi .slt (srcv (Shape.Idx.ofFin p)) 0#32) (IntOp.addi (srcv (Shape.Idx.ofFin p)) 500000#32)
      (srcv (Shape.Idx.ofFin p)) = _
    rw [hs]
    rfl
  -- so the clamped start position is the edge's source node
  have hq : min (broadcastInDim S16000000x1 ![0] bcast_S16000000_S16000000x1_0 idxv (StableHlo.Predicate.ixP p)).toInt.toNat
      (500000 - 1) = (srcNode ei p).val := by
    rw [StableHlo.Predicate.bcast_col1, hidx]
    rfl
  -- column 0 of the projection as a vector, at entry q
  have hx : ∀ q : Fin 500000,
      shapeCast S500000 (extractStridedSlice S500000x1 ![0, 0] P slices_S500000x2_S500000x1_0_0) shapeCasts_S500000x1_S500000
        (Shape.Idx.ofFin q) = P (ix2 q (0 : Fin 2)) := by
    intro q
    refine (shapeCast_apply _ _ _ (ix2 q (0 : Fin 1)) ?_).trans (col0_apply P (ix2 q (0 : Fin 1)))
    rw [Shape.rowMajor_val_two, Shape.rowMajor_val_one]
    show q.val * 1 + 0 = q.val
    omega
  rw [StableHlo.Predicate.gather_take _ rfl rfl rfl rfl _ _ p (by decide), hx]
  exact congrArg (fun q => P (ix2 q (0 : Fin 2))) (Fin.ext hq)

/-- THE MESSAGES: the gather of the projection's column 0 at the wrapped source words is, edge by edge, the projection at
    (the edge's source node, 0). -/
theorem msg_stage (P : S500000x2.Idx → EReal) (ei : S2x16000000.Idx → BitVec 32) (e : S16000000.Idx) :
    Host.gather gather_S500000_S16000000x1_S16000000_n_0_n_n_0_1_1
        (shapeCast S500000 (extractStridedSlice S500000x1 ![0, 0] P slices_S500000x2_S500000x1_0_0) shapeCasts_S500000x1_S500000)
        (broadcastInDim S16000000x1 ![0] bcast_S16000000_S16000000x1_0
          (select
            (cmpi .slt
              (shapeCast S16000000 (extractStridedSlice S1x16000000 ![0, 0] ei slices_S2x16000000_S1x16000000_0_0) shapeCasts_S1x16000000_S16000000)
              (broadcastInDim S16000000 ![] bcast_S_S16000000 (constantI S_ 32 0#32)))
            (addi
              (shapeCast S16000000 (extractStridedSlice S1x16000000 ![0, 0] ei slices_S2x16000000_S1x16000000_0_0) shapeCasts_S1x16000000_S16000000)
              (broadcastInDim S16000000 ![] bcast_S_S16000000 (constantI S_ 32 500000#32)))
            (shapeCast S16000000 (extractStridedSlice S1x16000000 ![0, 0] ei slices_S2x16000000_S1x16000000_0_0) shapeCasts_S1x16000000_S16000000)))
        e
      = P (ix2 (srcNode ei (⟨(e 0).val, (e 0).isLt⟩ : Fin 16000000)) (0 : Fin 2)) := by
  -- the edge index is the index of its one coordinate
  have he : e = Shape.Idx.ofFin (⟨(e 0).val, (e 0).isLt⟩ : Fin 16000000) := by
    funext a
    have ha : a = 0 := Subsingleton.elim _ _
    subst ha
    exact Fin.ext rfl
  exact (congrArg _ he).trans (msg_stage_at P ei ⟨(e 0).val, (e 0).isLt⟩)

end Cert.KernelIdeal.Sage

end
-- ==== Proof.LibCount.lean ====
/-
  An integer accumulating scatter counts. The host's `scatter` with an integer `add` body is a left fold over the
  updates in row-major order; because word addition is commutative and associative, the fold's value at an operand index
  is the operand's word plus the sum of the updates whose result index is that index. With every update the word 1 into a
  zero operand that sum is the NUMBER of updates landing there; while that number is below 2^31 the word read signed is
  the number, and converting it to a float gives, on the extended reals, exactly what the accumulating float scatter of
  ones into zeros gives: the two ways of counting in-degrees agree.
-/
import Idealize.ShloMosaic.PureOps.Ideal
import Idealize.ShloMosaic.PureOps.Ideal.Laws
import Idealize.ShloMosaic.Lib.WordSum

noncomputable section

namespace Idealize.ShloMosaic.LibCount

open Idealize.ShloMosaic

/-- One pass of the scatter's fold over ANY list of update positions, read at one operand index: the accumulator's word
    there plus, over the list, each update whose result index is that operand index (the others add the word zero).
    A step whose update lands at the index adds that update to the entry; a step that lands elsewhere, or outside the
    operand, leaves the entry as it was; associativity of word addition collects the additions on the right. -/
private theorem foldl_step_apply {s si u : Shape} {w w' : Nat} (d : ScatterDims s si u) (idx : IVec si w')
    (upd : u.Idx → BitVec w) (i : s.Idx) (l : List (Fin u.numel)) (r : s.Idx → BitVec w) :
    (l.foldl (fun r n =>
        match d.resultIdx? (u.rowMajor.symm n) idx with
        | some i => fun i' => if i' = i then IntOp.addi (r i) (upd (u.rowMajor.symm n)) else r i'
        | none => r) r) i
      = r i + (l.map (fun n =>
          if d.resultIdx? (u.rowMajor.symm n) idx = some i then upd (u.rowMajor.symm n) else 0)).sum := by
  induction l generalizing r with
  | nil => simp
  | cons n l ih =>
    rw [List.foldl_cons, ih, List.map_cons, List.sum_cons]
    cases hk : d.resultIdx? (u.rowMajor.symm n) idx with
    | none => simp
    | some k =>
      by_cases hki : k = i
      · subst hki
        simp [IntOp.addi, add_assoc]
      · have hik : ¬ i = k := fun h => hki h.symm
        simp [hki, hik]

/-- The integer accumulating scatter at an operand index: the operand's word plus the sum of the updates that land there. -/
theorem scatter_addi_apply {s si u : Shape} {w w' : Nat} (d : ScatterDims s si u) (x : s.Idx → BitVec w) (idx : IVec si w')
    (upd : u.Idx → BitVec w) (i : s.Idx) :
    Host.scatter d IntOp.addi x idx upd i
      = x i + ∑ j ∈ Finset.univ.filter (fun j => d.resultIdx? j idx = some i), upd j := by
  -- the fold over all positions in order, then: a list sum over every position is the sum over the positions' finite
  -- type; the row-major numbering is a bijection with the update indices; and a sum of "the update or zero" is the sum
  -- over the indices that pass the test
  refine (foldl_step_apply d idx upd i (List.finRange u.numel) x).trans ?_
  rw [← Fin.sum_univ_def, Finset.sum_filter,
    ← Equiv.sum_comp u.rowMajor.symm (fun j => if d.resultIdx? j idx = some i then upd j else 0)]

/-- Counting with words and counting with reals agree: the signed reading of the integer scatter of ones into zeros,
    as a float, is the float accumulating scatter of ones into zeros (fewer than 2^31 updates in all). -/
theorem sitofp_scatter_ones {s si u : Shape} {w' : Nat} (d : ScatterDims s si u) (idx : IVec si w') (hu : u.numel < 2 ^ 31)
    (i : s.Idx) :
    FloatOps.sitofp (F := Ideal) .f32 (Host.scatter d IntOp.addi (fun _ => 0#32) idx (fun _ => 1#32) i)
      = Ideal.hostScatterAdd d (fun _ => (0 : EReal)) idx (fun _ => (1 : EReal)) i := by
  -- the set of updates that land at the index, and its size: at most the number of update indices, so below 2^31
  set S := Finset.univ.filter (fun j : u.Idx => d.resultIdx? j idx = some i) with hS
  have hcard : S.card < 2 ^ 31 :=
    lt_of_le_of_lt ((Finset.card_le_univ S).trans_eq u.card_idx) hu
  -- the word: zero plus a sum of ones that stays inside the word, so its value is the size of the set
  have hnat : (∑ _j ∈ S, (1#32 : BitVec 32)).toNat = S.card := by
    have h1 : ∑ _j ∈ S, ((1#32 : BitVec 32)).toNat = S.card := by simp
    rw [WordSum.toNat_sum S (fun _ => (1#32 : BitVec 32)) (by rw [h1]; omega), h1]
  -- below 2^31 the signed reading is the value
  have hint : (∑ _j ∈ S, (1#32 : BitVec 32)).toInt = (S.card : ℤ) := by
    rw [BitVec.toInt_eq_toNat_of_lt (by rw [hnat]; omega), hnat]
  rw [scatter_addi_apply]
  show ((((0#32 : BitVec 32) + ∑ _j ∈ S, (1#32 : BitVec 32)).toInt : ℝ) : EReal) = (0 : EReal) + ∑ _j ∈ S, (1 : EReal)
  rw [show (0#32 : BitVec 32) = 0 from rfl, zero_add, zero_add, hint, Finset.sum_const, nsmul_one,
    Int.cast_natCast, EReal.coe_natCast]

end Idealize.ShloMosaic.LibCount

end
-- ==== Proof.KStagesB.lean ====
/-
  The kernel program's host operations between its two regions, read at an index: the two accumulations over the edges
  and the scalars. The aggregate of node n is the float accumulating scatter of the messages at n; the in-degree of node n,
  which the kernel program counts with integer words and then converts, is the float accumulating scatter of ones at n
  (fewer than 2^31 edges, so the word count does not wrap); both kept as [500000 × 1] columns. The one-element bias
  arrays are reshaped to 1 × 1.
-/
import proofs.«411780_j40157944218343_4_alg».proof.Proof.Gen.KernelIdeal
import proofs.«411780_j40157944218343_4_alg».proof.Proof.Spec
import proofs.«411780_j40157944218343_4_alg».proof.Proof.LibCount
import Idealize.ShloMosaic.Lib.ValueIdx
import Idealize.ShloMosaic.Lib.ValueLayout
import Idealize.ShloMosaic.Lib.Pipeline.Value
import Idealize.ShloMosaic.Lib.StableHlo.Predicate
import Idealize.ShloMosaic.Lib.IdealHost
import Idealize.ShloMosaic.PureOps.Ideal.Laws

noncomputable section

namespace Cert.KernelIdeal.Sage

open Idealize.ShloMosaic Idealize.ShloMosaic.ValueIdx
open Cert.KernelIdeal Cert.KernelIdeal.Facts₀ Cert.Sage

/-- The zero operand: the zero word of the float format, spread over the nodes, is the zero function. -/
private theorem zeros_eq :
    broadcastInDim S500000 ![] bcast_S_S500000 (constant (F := Ideal) S_ .f32 0x00000000#32) = fun _ => (0 : EReal) :=
  funext fun _ => Ideal.ofBits_zero_f32

/-- The index operand: row 1 of the edge array, flattened and stood up as a column, is the destination column. -/
private theorem dstCol_eq (ei : S2x16000000.Idx → BitVec 32) :
    broadcastInDim S16000000x1 ![0] bcast_S16000000_S16000000x1_0
        (shapeCast S16000000 (extractStridedSlice S1x16000000 ![1, 0] ei slices_S2x16000000_S1x16000000_1_0) shapeCasts_S1x16000000_S16000000)
      = dstCol ei := by
  funext j
  -- the column's entry (e, 0) is the flat vector's entry e
  rw [broadcastInDim_apply ![0] bcast_S16000000_S16000000x1_0 _ j (ix1 (⟨(j 0).val, idx2_lt0 j⟩ : Fin 16000000)) (fun a => by
    match a with
    | ⟨0, _⟩ => rfl)]
  -- the flat vector's entry e is the one-row array's entry (0, e): the same row-major position
  rw [shapeCast_apply _ shapeCasts_S1x16000000_S16000000 (ix1 (⟨(j 0).val, idx2_lt0 j⟩ : Fin 16000000))
    (ix2 (0 : Fin 1) (⟨(j 0).val, idx2_lt0 j⟩ : Fin 16000000)) (by
      rw [Shape.rowMajor_val_two, Shape.rowMajor_val_one]
      show 0 * _ + (j 0).val = (j 0).val
      omega)]
  -- the one-row array is row 1 of the edge array
  exact extractStridedSlice_apply ![1, 0] ei slices_S2x16000000_S1x16000000_1_0
    (ix2 (0 : Fin 1) (⟨(j 0).val, idx2_lt0 j⟩ : Fin 16000000)) (ix2 (1 : Fin 2) (⟨(j 0).val, idx2_lt0 j⟩ : Fin 16000000))
    (fun a => by
      match a with
      | ⟨0, _⟩ => rfl
      | ⟨1, _⟩ => show (j 0).val = 0 + (j 0).val; omega)

/-- A vector over the nodes kept as a column reads, at (n, 0), the vector at n. -/
private theorem col_apply {α : Type} (v : S500000.Idx → α) (i : S500000x1.Idx) :
    broadcastInDim S500000x1 ![0] bcast_S500000_S500000x1_0 v i = v (ix1 (⟨(i 0).val, idx2_lt0 i⟩ : Fin 500000)) :=
  broadcastInDim_apply ![0] bcast_S500000_S500000x1_0 v i (ix1 (⟨(i 0).val, idx2_lt0 i⟩ : Fin 500000)) (fun a => by
    match a with
    | ⟨0, _⟩ => rfl)

/-- On the extended reals the host's accumulating float scatter is the exact one: the operand plus the sum of the updates
    that land at the index. -/
private theorem scatterAdd_ideal {s si u : Shape} {φ : FTy} {w : Nat} (d : ScatterDims s si u) (x : FVec Ideal s φ)
    (idx : IVec si w) (upd : FVec Ideal u φ) :
    Host.scatterAdd (F := Ideal) d x idx upd = Ideal.hostScatterAdd d x idx upd := rfl

/-- A word spread from a scalar over any shape is the constant function. -/
private theorem bcast_constI {t : Shape} {w : Nat} (h : S_.BroadcastsInDim t ![]) (c : BitVec w) :
    broadcastInDim t ![] h (constantI S_ w c) = fun _ => c := rfl

/-- There are fewer than 2^31 edges. -/
private theorem numel_edges : SE.numel < 2 ^ 31 := by
  rw [Shape.numel_rank1]
  show 16000000 < 2 ^ 31
  norm_num

/-- The kernel program's scatter record is the specification's: the same dimension numbers. -/
theorem scatterDims_eq : scatter_S500000_S16000000x1_S16000000_n_0_0_1 = dS := by
  unfold scatter_S500000_S16000000x1_S16000000_n_0_0_1 dS
  rfl

/-- THE AGGREGATE: the float accumulating scatter of the updates `u` into zeros by the destination words of the edge
    array, kept as a column, read at node `i 0`. -/
theorem agg_stage (ei : S2x16000000.Idx → BitVec 32) (u : S16000000.Idx → EReal) (i : S500000x1.Idx) :
    broadcastInDim S500000x1 ![0] bcast_S500000_S500000x1_0
        (Host.scatterAdd (F := Ideal) scatter_S500000_S16000000x1_S16000000_n_0_0_1
          (broadcastInDim S500000 ![] bcast_S_S500000 (constant (F := Ideal) S_ .f32 0x00000000#32))
          (broadcastInDim S16000000x1 ![0] bcast_S16000000_S16000000x1_0
            (shapeCast S16000000 (extractStridedSlice S1x16000000 ![1, 0] ei slices_S2x16000000_S1x16000000_1_0) shapeCasts_S1x16000000_S16000000))
          u) i
      = Ideal.hostScatterAdd dS (fun _ => (0 : EReal)) (dstCol ei) u (ix1 (⟨(i 0).val, idx2_lt0 i⟩ : Fin 500000)) := by
  rw [col_apply, scatterAdd_ideal, zeros_eq, dstCol_eq, scatterDims_eq]

/-- THE IN-DEGREE: the integer scatter of ones into zeros by the destination words, converted to a float and kept as a
    column, is the float accumulating scatter of ones. -/
theorem cnt_stage (ei : S2x16000000.Idx → BitVec 32) (i : S500000x1.Idx) :
    broadcastInDim S500000x1 ![0] bcast_S500000_S500000x1_0
        (sitofp (F := Ideal) .f32
          (Host.scatter scatter_S500000_S16000000x1_S16000000_n_0_0_1 IntOp.addi
            (broadcastInDim S500000 ![] bcast_S_S500000 (constantI S_ 32 0#32))
            (broadcastInDim S16000000x1 ![0] bcast_S16000000_S16000000x1_0
              (shapeCast S16000000 (extractStridedSlice S1x16000000 ![1, 0] ei slices_S2x16000000_S1x16000000_1_0) shapeCasts_S1x16000000_S16000000))
            (broadcastInDim S16000000 ![] bcast_S_S16000000 (constantI S_ 32 1#32)))) i
      = Ideal.hostScatterAdd dS (fun _ => (0 : EReal)) (dstCol ei) (fun _ => (1 : EReal)) (ix1 (⟨(i 0).val, idx2_lt0 i⟩ : Fin 500000)) := by
  rw [col_apply, sitofp_apply, bcast_constI, bcast_constI, dstCol_eq, scatterDims_eq]
  exact Idealize.ShloMosaic.LibCount.sitofp_scatter_ones dS (dstCol ei) numel_edges _

/-- A one-element array reshaped to 1 × 1 holds that element. -/
theorem scalar_apply (b : S1.Idx → EReal) :
    shapeCast S1x1 b shapeCasts_S1_S1x1 (ix2 (0 : Fin 1) (0 : Fin 1)) = b (ix1 (0 : Fin 1)) := by
  refine shapeCast_apply b shapeCasts_S1_S1x1 _ _ ?_
  rw [Shape.rowMajor_val_two, Shape.rowMajor_val_one]
  rfl

end Cert.KernelIdeal.Sage

end
-- ==== Proof.KValue.lean ====
/-
  The kernel program's run, read: the result array ends at `G` of the launch arguments.

  The run's last boundary holds the result array at what the finishing region leaves (Proof/KRegion1.lean): node by node
  `nodeOut` of the six arrays that region finds. Those six are read back through the host operations between the regions
  (Proof/KStagesA.lean, Proof/KStagesB.lean): the aggregate and the in-degree are the accumulating scatters over the edges,
  the messages the projection's column 0 at each edge's source node, the node's own projection its column 1; and the
  projection is what the first region leaves (Proof/KRegion0.lean): each row of the features against the two rows of the
  stacked weights, row 0 the neighbour weights and row 1 the root weights. The edge rows and the stacked weights are
  computed before the first region, which does not write them.
-/
import proofs.«411780_j40157944218343_4_alg».proof.Proof.KRun
import proofs.«411780_j40157944218343_4_alg».proof.Proof.KRegion0
import proofs.«411780_j40157944218343_4_alg».proof.Proof.KRegion1
import proofs.«411780_j40157944218343_4_alg».proof.Proof.KStagesA
import proofs.«411780_j40157944218343_4_alg».proof.Proof.KStagesB
import proofs.«411780_j40157944218343_4_alg».proof.Proof.Spec
import Idealize.ShloMosaic.Lib.StableHlo.Run

set_option maxRecDepth 16384

noncomputable section

namespace Cert.KernelIdeal.Sage

open Idealize.ShloMosaic Idealize.ShloMosaic.TcCoe Idealize.SL.Sem Idealize.ShloMosaic.StableHlo
open Idealize.ShloMosaic.ValueIdx
open Cert.KernelIdeal Cert.KernelIdeal.Gen Cert.Sage

variable (m : (ℓ : Loc nD τ sig) → Buf (Elt Ideal) ℓ) (ρ : Dev nD → PrngReg)

/-! ## Before the first region -/

/-- The features reach the first region as launched. -/
theorem V1_arg0 (c : Dev nD) : V1 m ρ c main_arg0 = m ((c : Thread nD τ).loc main_arg0) := by
  show StableHlo.after hostOps0 (W0 m ρ c) (Proc.devRef .tc main_arg0) = _
  after_results

/-- The stacked weights the first region finds: the neighbour weights over the root weights. -/
theorem V1_v4 (c : Dev nD) : V1 m ρ c main_v4
    = concatenate S2x17 0 [⟨S1x17, m ((c : Thread nD τ).loc main_arg3)⟩, ⟨S1x17, m ((c : Thread nD τ).loc main_arg5)⟩]
        Facts₀.concatenates_S1x17_S1x17_S2x17_d0 := by
  show StableHlo.after hostOps0 (W0 m ρ c) (Proc.devRef .tc main_v4) = _
  after_results

/-- The source words, computed before the first region. -/
theorem W1_v1 (c : Dev nD) : W1 m ρ c (Proc.devRef .tc main_v1)
    = shapeCast S16000000 (extractStridedSlice S1x16000000 ![0, 0] (m ((c : Thread nD τ).loc main_arg1)) Facts₀.slices_S2x16000000_S1x16000000_0_0)
        Facts₀.shapeCasts_S1x16000000_S16000000 := by
  show StableHlo.after hostOps0 (W0 m ρ c) (Proc.devRef .tc main_v1) = _
  after_results
  rfl

/-- The destination words, computed before the first region. -/
theorem W1_v3 (c : Dev nD) : W1 m ρ c (Proc.devRef .tc main_v3)
    = shapeCast S16000000 (extractStridedSlice S1x16000000 ![1, 0] (m ((c : Thread nD τ).loc main_arg1)) Facts₀.slices_S2x16000000_S1x16000000_1_0)
        Facts₀.shapeCasts_S1x16000000_S16000000 := by
  show StableHlo.after hostOps0 (W0 m ρ c) (Proc.devRef .tc main_v3) = _
  after_results
  rfl

theorem W1_arg4 (c : Dev nD) : W1 m ρ c (Proc.devRef .tc main_arg4) = m ((c : Thread nD τ).loc main_arg4) := by
  show StableHlo.after hostOps0 (W0 m ρ c) (Proc.devRef .tc main_arg4) = _
  after_results
theorem W1_arg6 (c : Dev nD) : W1 m ρ c (Proc.devRef .tc main_arg6) = m ((c : Thread nD τ).loc main_arg6) := by
  show StableHlo.after hostOps0 (W0 m ρ c) (Proc.devRef .tc main_arg6) = _
  after_results
theorem W1_arg7 (c : Dev nD) : W1 m ρ c (Proc.devRef .tc main_arg7) = m ((c : Thread nD τ).loc main_arg7) := by
  show StableHlo.after hostOps0 (W0 m ρ c) (Proc.devRef .tc main_arg7) = _
  after_results

/-! ## After the first region -/

/-- The projection: what the first region leaves in its output array. -/
theorem W2_v5 (c : Dev nD) : W2 m ρ c (Proc.devRef .tc main_v5)
    = proj2 (m ((c : Thread nD τ).loc main_arg0))
        (concatenate S2x17 0 [⟨S1x17, m ((c : Thread nD τ).loc main_arg3)⟩, ⟨S1x17, m ((c : Thread nD τ).loc main_arg5)⟩]
          Facts₀.concatenates_S1x17_S1x17_S2x17_d0) := by
  rw [show W2 m ρ c (Proc.devRef .tc main_v5) = (dat0 (V1 m ρ) c).arrAt 2 cfg0.N from W2_arr m ρ c 2,
    final0 (V1 m ρ) c, V1_arg0, V1_v4]

/-- The first region writes none of these: they hold after it what they held before. -/
theorem W2_v1 (c : Dev nD) : W2 m ρ c (Proc.devRef .tc main_v1) = W1 m ρ c (Proc.devRef .tc main_v1) :=
  W2_of_ne m ρ c main_v1 (by decide)
theorem W2_v3 (c : Dev nD) : W2 m ρ c (Proc.devRef .tc main_v3) = W1 m ρ c (Proc.devRef .tc main_v3) :=
  W2_of_ne m ρ c main_v3 (by decide)
theorem W2_arg4 (c : Dev nD) : W2 m ρ c (Proc.devRef .tc main_arg4) = W1 m ρ c (Proc.devRef .tc main_arg4) :=
  W2_of_ne m ρ c main_arg4 (by decide)
theorem W2_arg6 (c : Dev nD) : W2 m ρ c (Proc.devRef .tc main_arg6) = W1 m ρ c (Proc.devRef .tc main_arg6) :=
  W2_of_ne m ρ c main_arg6 (by decide)
theorem W2_arg7 (c : Dev nD) : W2 m ρ c (Proc.devRef .tc main_arg7) = W1 m ρ c (Proc.devRef .tc main_arg7) :=
  W2_of_ne m ρ c main_arg7 (by decide)

/-! ## What the finishing region finds: the host operations between the regions, composed -/

theorem V3_v19_term (c : Dev nD) : V3 m ρ c main_v19
    = broadcastInDim S500000x1 ![0] Facts₀.bcast_S500000_S500000x1_0
        (Host.scatterAdd (F := Ideal) scatter_S500000_S16000000x1_S16000000_n_0_0_1
          (broadcastInDim S500000 ![] Facts₀.bcast_S_S500000 (constant (F := Ideal) S_ .f32 0x00000000#32))
          (broadcastInDim S16000000x1 ![0] Facts₀.bcast_S16000000_S16000000x1_0 (W2 m ρ c (Proc.devRef .tc main_v3)))
          (Host.gather gather_S500000_S16000000x1_S16000000_n_0_n_n_0_1_1
            (shapeCast S500000 (extractStridedSlice S500000x1 ![0, 0] (W2 m ρ c (Proc.devRef .tc main_v5)) Facts₀.slices_S500000x2_S500000x1_0_0) Facts₀.shapeCasts_S500000x1_S500000)
            (broadcastInDim S16000000x1 ![0] Facts₀.bcast_S16000000_S16000000x1_0
          (select
            (cmpi .slt (W2 m ρ c (Proc.devRef .tc main_v1)) (broadcastInDim S16000000 ![] Facts₀.bcast_S_S16000000 (constantI S_ 32 0#32)))
            (addi (W2 m ρ c (Proc.devRef .tc main_v1)) (broadcastInDim S16000000 ![] Facts₀.bcast_S_S16000000 (constantI S_ 32 500000#32)))
            (W2 m ρ c (Proc.devRef .tc main_v1)))))) := by
  show StableHlo.after hostOps1 (W2 m ρ c) (Proc.devRef .tc main_v19) = _
  after_results
  rfl

theorem V3_v25_term (c : Dev nD) : V3 m ρ c main_v25
    = broadcastInDim S500000x1 ![0] Facts₀.bcast_S500000_S500000x1_0
        (sitofp (F := Ideal) .f32
          (Host.scatter scatter_S500000_S16000000x1_S16000000_n_0_0_1 IntOp.addi
            (broadcastInDim S500000 ![] Facts₀.bcast_S_S500000 (constantI S_ 32 0#32))
            (broadcastInDim S16000000x1 ![0] Facts₀.bcast_S16000000_S16000000x1_0 (W2 m ρ c (Proc.devRef .tc main_v3)))
            (broadcastInDim S16000000 ![] Facts₀.bcast_S_S16000000 (constantI S_ 32 1#32)))) := by
  show StableHlo.after hostOps1 (W2 m ρ c) (Proc.devRef .tc main_v25) = _
  after_results

theorem V3_v7_term (c : Dev nD) : V3 m ρ c main_v7
    = extractStridedSlice S500000x1 ![0, 1] (W2 m ρ c (Proc.devRef .tc main_v5)) Facts₀.slices_S500000x2_S500000x1_0_1 := by
  show StableHlo.after hostOps1 (W2 m ρ c) (Proc.devRef .tc main_v7) = _
  after_results

theorem V3_v26_term (c : Dev nD) : V3 m ρ c main_v26 = shapeCast S1x1 (W2 m ρ c (Proc.devRef .tc main_arg4)) Facts₀.shapeCasts_S1_S1x1 := by
  show StableHlo.after hostOps1 (W2 m ρ c) (Proc.devRef .tc main_v26) = _
  after_results
  rfl

theorem V3_v27_term (c : Dev nD) : V3 m ρ c main_v27 = shapeCast S1x1 (W2 m ρ c (Proc.devRef .tc main_arg7)) Facts₀.shapeCasts_S1_S1x1 := by
  show StableHlo.after hostOps1 (W2 m ρ c) (Proc.devRef .tc main_v27) = _
  after_results
  rfl

theorem V3_arg6_term (c : Dev nD) : V3 m ρ c main_arg6 = (W2 m ρ c (Proc.devRef .tc main_arg6)) := by
  show StableHlo.after hostOps1 (W2 m ρ c) (Proc.devRef .tc main_arg6) = _
  after_results

/-! ## The same, read at an index against the launch arguments -/

/-- A row of the features against row 0 of the stacked weights is the row against the neighbour weights. -/
theorem proj2_col0 (x : S500000x17.Idx → EReal) (wl wr : S1x17.Idx → EReal) (n : Fin 500000) :
    proj2 x (concatenate S2x17 0 [⟨S1x17, wl⟩, ⟨S1x17, wr⟩] Facts₀.concatenates_S1x17_S1x17_S2x17_d0) (ix2 n (0 : Fin 2))
      = rowDot x wl n := by
  unfold proj2 rowDot
  refine Finset.sum_congr rfl fun k _ => ?_
  rw [show (⟨((ix2 n (0 : Fin 2) : S500000x2.Idx) 1).val, idx2_lt1 _⟩ : Fin 2) = 0 from rfl, stacked_apply, if_pos rfl]

/-- A row of the features against row 1 of the stacked weights is the row against the root weights. -/
theorem proj2_col1 (x : S500000x17.Idx → EReal) (wl wr : S1x17.Idx → EReal) (n : Fin 500000) :
    proj2 x (concatenate S2x17 0 [⟨S1x17, wl⟩, ⟨S1x17, wr⟩] Facts₀.concatenates_S1x17_S1x17_S2x17_d0) (ix2 n (1 : Fin 2))
      = rowDot x wr n := by
  unfold proj2 rowDot
  refine Finset.sum_congr rfl fun k _ => ?_
  rw [show (⟨((ix2 n (1 : Fin 2) : S500000x2.Idx) 1).val, idx2_lt1 _⟩ : Fin 2) = 1 from rfl, stacked_apply,
    if_neg (by decide)]

/-- The aggregate column: the accumulating scatter of the messages. -/
theorem V3_v19 (c : Dev nD) (i : S500000x1.Idx) : V3 m ρ c main_v19 i
    = Ideal.hostScatterAdd dS (fun _ => (0 : EReal)) (dstCol (m ((c : Thread nD τ).loc main_arg1)))
        (msg (m ((c : Thread nD τ).loc main_arg0)) (m ((c : Thread nD τ).loc main_arg3)) (m ((c : Thread nD τ).loc main_arg1)))
        (ix1 (⟨(i 0).val, idx2_lt0 i⟩ : Fin 500000)) := by
  rw [V3_v19_term, W2_v3, W1_v3, W2_v5, W2_v1, W1_v1, agg_stage]
  congr 1
  funext e'
  rw [msg_stage, proj2_col0]
  rfl

/-- The in-degree column: the accumulating scatter of ones. -/
theorem V3_v25 (c : Dev nD) (i : S500000x1.Idx) : V3 m ρ c main_v25 i
    = Ideal.hostScatterAdd dS (fun _ => (0 : EReal)) (dstCol (m ((c : Thread nD τ).loc main_arg1))) (fun _ => (1 : EReal))
        (ix1 (⟨(i 0).val, idx2_lt0 i⟩ : Fin 500000)) := by
  rw [V3_v25_term, W2_v3, W1_v3, cnt_stage]

/-- The node's own projection: column 1 of the projection. -/
theorem V3_v7 (c : Dev nD) (i : S500000x1.Idx) : V3 m ρ c main_v7 i
    = rowDot (m ((c : Thread nD τ).loc main_arg0)) (m ((c : Thread nD τ).loc main_arg5)) (⟨(i 0).val, idx2_lt0 i⟩ : Fin 500000) := by
  rw [V3_v7_term, W2_v5, col1_apply, proj2_col1]

/-- The neighbour bias as the finishing region finds it. -/
theorem V3_v26 (c : Dev nD) : V3 m ρ c main_v26 (ix2 (0 : Fin 1) (0 : Fin 1)) = m ((c : Thread nD τ).loc main_arg4) (ix1 (0 : Fin 1)) := by
  rw [V3_v26_term, W2_arg4, W1_arg4, scalar_apply]

/-- The output bias as the finishing region finds it. -/
theorem V3_v27 (c : Dev nD) : V3 m ρ c main_v27 (ix2 (0 : Fin 1) (0 : Fin 1)) = m ((c : Thread nD τ).loc main_arg7) (ix1 (0 : Fin 1)) := by
  rw [V3_v27_term, W2_arg7, W1_arg7, scalar_apply]

/-- The output weight as the finishing region finds it. -/
theorem V3_arg6 (c : Dev nD) : V3 m ρ c main_arg6 = m ((c : Thread nD τ).loc main_arg6) := by
  rw [V3_arg6_term, W2_arg6, W1_arg6]

/-! ## The result -/

/-- The last boundary's contents at the result array: `G` of the launch arguments. -/
theorem value (c : Dev nD) : W4 m ρ c (Proc.devRef .tc main_v28)
    = G dS (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  rw [show W4 m ρ c (Proc.devRef .tc main_v28) = (dat1 (V3 m ρ) c).arrAt 6 cfg1.N from W4_arr m ρ c 6, final1 (V3 m ρ) c]
  funext i
  unfold fin1 G
  rw [V3_v19, V3_v25, V3_v7, V3_v26, V3_v27, V3_arg6]

/-- Every weakly fair execution of the kernel program at the extended reals terminates with the result array at `G` of
    the launch arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v28) = Cert.Sage.G Cert.Sage.dS (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7) :=
  (θ_run defs _ _).mono (fun r h c => ⟨(h c).1.trans (value m ρ c), (h c).2⟩) (run_result m ρ)

end Cert.KernelIdeal.Sage

end
-- ==== Proof.LibGather2.lean ====
/-
  A gather of single elements out of a one-column matrix, read at a result index. Taking `x[idx, 0]` from an [N × 1]
  array at a vector of n positions prints as a gather whose start indices are the [n × 2] table (position, 0), both operand
  axes collapsed and start-indexed, no offset or batching axes, the index vector on axis 1. Result position p is the operand
  at row `idx[p, 0]` read signed and clamped into the rows, column 0 (the column's start, whatever word the table holds
  there, is clamped into the single column).
-/
import Idealize.ShloMosaic.PureOps
import Idealize.ShloMosaic.Lib.ValueIdx

noncomputable section

namespace Idealize.ShloMosaic.LibGather2

open Idealize.ShloMosaic Idealize.ShloMosaic.ValueIdx

/-- THE READ: position `p` of the gather is the operand at (the clamped signed start `idx[p, 0]`, column 0). -/
theorem gather_col_apply {α : Type} {N n w : Nat} (d : GatherDims ⟨2, ![N, 1]⟩ ⟨2, ![n, 2]⟩ ⟨1, ![n]⟩)
    (hcoll : d.collapsedSliceDims = [0, 1]) (hob : d.operandBatchingDims = [])
    (hsim : d.startIndexMap = [0, 1]) (hivd : d.indexVectorDim = 1)
    (x : (⟨2, ![N, 1]⟩ : Shape).Idx → α) (idx : IVec ⟨2, ![n, 2]⟩ w) (p : Fin n) (hN : 0 < N) :
    Host.gather d x idx (ix1 p)
      = x (ix2 (⟨min (idx (ix2 p (0 : Fin 2))).toInt.toNat (N - 1), by omega⟩ : Fin N) (0 : Fin 1)) := by
  unfold Host.gather
  congr 1
  funext a
  apply Fin.ext
  have hb : ∀ a : Fin 2, a ∉ d.operandBatchingDims := fun a => by rw [hob]; exact List.not_mem_nil
  have hk : ∀ a : Fin 2, a ∉ d.sKept := fun a => by
    rw [GatherDims.mem_sKept, hcoll]
    intro h
    apply h.1
    match a with
    | ⟨0, _⟩ => exact List.mem_cons_self
    | ⟨1, _⟩ => exact List.mem_cons_of_mem _ List.mem_cons_self
  -- the row axis: the start is the table's entry (p, 0), read signed, clamped to N - 1 (the slice there is one row)
  have h0 : d.start (ix1 p) idx (0 : Fin 2) = min (idx (ix2 p (0 : Fin 2))).toInt.toNat (N - 1) := by
    have hm : (0 : Fin 2) ∈ d.startIndexMap := by rw [hsim]; exact List.mem_cons_self
    have hsl : d.sliceSizes 0 = 1 := d.slice_collapsed 0 (by rw [hcoll]; exact List.mem_cons_self)
    unfold GatherDims.start
    rw [dif_pos hm]
    show min (idx _).toInt.toNat (N - d.sliceSizes 0) = min (idx (ix2 p (0 : Fin 2))).toInt.toNat (N - 1)
    rw [hsl]
    congr 3
    congr 1
    funext b
    match b with
    | ⟨0, _⟩ =>
      -- the table's axis 0 is its one batch axis: it carries the result's coordinate p
      unfold GatherDims.siIdx
      rw [dif_neg (by rw [hivd]; simp)]
      unfold GatherDims.siCoord
      apply Fin.ext
      simp only [Fin.val_cast]
      have e : ∀ X : Fin 1, ((ix1 p : (⟨1, ![n]⟩ : Shape).Idx) X).val = p.val := fun X => by
        have hX : X = 0 := Subsingleton.elim _ _
        subst hX; rfl
      exact e _
    | ⟨1, _⟩ =>
      -- the table's axis 1 is the index vector: the component for operand axis 0 is its place in the start index map, 0
      unfold GatherDims.siIdx
      rw [dif_pos (by rw [hivd])]
      apply Fin.ext
      show List.idxOf (0 : Fin 2) d.startIndexMap = 0
      rw [hsim]; simp
  -- the column axis: extent 1 and slice 1, so the clamp's upper end is 0
  have h1 : d.start (ix1 p) idx (1 : Fin 2) = 0 := by
    have hm : (1 : Fin 2) ∈ d.startIndexMap := by rw [hsim]; exact List.mem_cons_of_mem _ List.mem_cons_self
    have hsl : d.sliceSizes 1 = 1 := d.slice_collapsed 1 (by rw [hcoll]; exact List.mem_cons_of_mem _ List.mem_cons_self)
    unfold GatherDims.start
    rw [dif_pos hm]
    show min (idx _).toInt.toNat (1 - d.sliceSizes 1) = 0
    rw [hsl]
    exact Nat.min_zero _
  simp only [GatherDims.operandIdx, GatherDims.batchCoord_eq_zero _ _ _ (hb _), GatherDims.offCoord_eq_zero _ _ _ (hk _),
    Nat.add_zero]
  match a with
  | ⟨0, _⟩ => exact h0
  | ⟨1, _⟩ => exact h1

end Idealize.ShloMosaic.LibGather2

end
-- ==== Proof.RefValue.lean ====
/-
  The reference program's run, read: the result array ends at `G` of the launch arguments.

  The reference is a host program with no kernel: a straight line of sixty-one array operations once its exponential
  linear unit, a function of its own with two selections inside, is written out at its call. Run from any memory it ends
  with every buffer at the fold of those operations over the launch contents; the result buffer's fold is one term of
  seven of the arguments, built stage by stage below: the two rows of the edge array; the features against the
  transposed neighbour weights, a column; the source words with the negative ones moved up by the node count; the
  two-column table of start indices (the wrapped word, zero); the gather of the column at that table, which clamps each
  row index into the node range and reads column 0; the accumulating scatters of those messages and of ones by the
  destination words; their quotient with the count read as at least one; the bias and the features against the root
  weights added; the unit; the contraction with the one-by-one output weight, a single product; the output bias.
  Read at a node each stage is the specification's: the contraction over 17 features is `rowDot`, the clamped read is
  `srcNode`, the two scatters are `G`'s two sums over the edges the scatter keeps, and on the branch where the unit's
  outer selection takes it, the inner selection is the node's own value and one times its exponential less one is
  `nodeOut`'s second branch.
-/
import proofs.«411780_j40157944218343_4_alg».proof.Proof.Gen.ReferenceIdeal
import proofs.«411780_j40157944218343_4_alg».proof.Proof.Spec
import proofs.«411780_j40157944218343_4_alg».proof.Proof.LibGather2
import Idealize.ShloMosaic.Lib.StableHlo.Run
import Idealize.ShloMosaic.Lib.IdealHost
import Idealize.ShloMosaic.Lib.Pipeline.Value

noncomputable section

namespace Cert.ReferenceIdeal.Sage

open Idealize.ShloMosaic Idealize.ShloMosaic.TcCoe Idealize.SL.Sem
open Cert.ReferenceIdeal Cert.ReferenceIdeal.Gen
open Idealize.ShloMosaic.StableHlo
open Idealize.ShloMosaic.ValueIdx

/-! ## The program as a straight line -/

section Line

variable {F : FTy → Type} [FloatOps F]

/-- The program's operations in order, the three calls replaced by the callee's operations over the call's buffers:
    forty-one of the program's own, then the fifteen of the exponential linear unit (two comparisons with zero, the
    inner selection, the exponential less one, the product with one, the outer selection), then the last five. -/
abbrev ops : List (HloOp τ sig (Elt F)) :=
  [ unary main_arg1 main_v0 ((extractStridedSlice S1x16000000 ![0, 0] · slices_S2x16000000_S1x16000000_0_0) : (⟨S2x16000000, .i32⟩ : BufTy).Contents (Elt F) → (⟨S1x16000000, .i32⟩ : BufTy).Contents (Elt F)),
    reshape main_v0 main_v1 rfl shapeCasts_S1x16000000_S16000000,
    unary main_arg1 main_v2 ((extractStridedSlice S1x16000000 ![1, 0] · slices_S2x16000000_S1x16000000_1_0) : (⟨S2x16000000, .i32⟩ : BufTy).Contents (Elt F) → (⟨S1x16000000, .i32⟩ : BufTy).Contents (Elt F)),
    reshape main_v2 main_v3 rfl shapeCasts_S1x16000000_S16000000,
    unary main_arg3 main_v4 ((transpose S17x1 [1, 0] · transposes_S1x17_S17x1_1_0) : (⟨S1x17, .f32⟩ : BufTy).Contents (Elt F) → (⟨S17x1, .f32⟩ : BufTy).Contents (Elt F)),
    binary main_arg0 main_v4 main_v5 ((fun l r => Host.dotGeneral dot_S500000x17_S17x1_S500000x1_1_0_0_1_n_n none l r) : (⟨S500000x17, .f32⟩ : BufTy).Contents (Elt F) → (⟨S17x1, .f32⟩ : BufTy).Contents (Elt F) → (⟨S500000x1, .f32⟩ : BufTy).Contents (Elt F)),
    nullary main_c (constantI S_ 32 0#32),
    unary main_c main_v6 (broadcastInDim S16000000 ![] bcast_S_S16000000 : (⟨S_, .i32⟩ : BufTy).Contents (Elt F) → (⟨S16000000, .i32⟩ : BufTy).Contents (Elt F)),
    binary main_v1 main_v6 main_v7 (cmpi .slt : (⟨S16000000, .i32⟩ : BufTy).Contents (Elt F) → (⟨S16000000, .i32⟩ : BufTy).Contents (Elt F) → (⟨S16000000, .i1⟩ : BufTy).Contents (Elt F)),
    nullary main_c_0 (constantI S_ 32 500000#32),
    unary main_c_0 main_v8 (broadcastInDim S16000000 ![] bcast_S_S16000000 : (⟨S_, .i32⟩ : BufTy).Contents (Elt F) → (⟨S16000000, .i32⟩ : BufTy).Contents (Elt F)),
    binary main_v1 main_v8 main_v9 (addi : (⟨S16000000, .i32⟩ : BufTy).Contents (Elt F) → (⟨S16000000, .i32⟩ : BufTy).Contents (Elt F) → (⟨S16000000, .i32⟩ : BufTy).Contents (Elt F)),
    ternary main_v7 main_v9 main_v1 main_v10 (select : (⟨S16000000, .i1⟩ : BufTy).Contents (Elt F) → (⟨S16000000, .i32⟩ : BufTy).Contents (Elt F) → (⟨S16000000, .i32⟩ : BufTy).Contents (Elt F) → (⟨S16000000, .i32⟩ : BufTy).Contents (Elt F)),
    nullary main_c_1 (constantI S_ 32 0#32),
    unary main_c_1 main_v11 (broadcastInDim S16000000 ![] bcast_S_S16000000 : (⟨S_, .i32⟩ : BufTy).Contents (Elt F) → (⟨S16000000, .i32⟩ : BufTy).Contents (Elt F)),
    unary main_v11 main_v12 (id : (⟨S16000000, .i32⟩ : BufTy).Contents (Elt F) → (⟨S16000000, .i32⟩ : BufTy).Contents (Elt F)),
    unary main_v10 main_v13 (broadcastInDim S16000000x1 ![0] bcast_S16000000_S16000000x1_0 : (⟨S16000000, .i32⟩ : BufTy).Contents (Elt F) → (⟨S16000000x1, .i32⟩ : BufTy).Contents (Elt F)),
    unary main_v12 main_v14 (broadcastInDim S16000000x1 ![0] bcast_S16000000_S16000000x1_0 : (⟨S16000000, .i32⟩ : BufTy).Contents (Elt F) → (⟨S16000000x1, .i32⟩ : BufTy).Contents (Elt F)),
    binary main_v13 main_v14 main_v15 ((fun a b => concatenate S16000000x2 1 [⟨S16000000x1, a⟩, ⟨S16000000x1, b⟩] concatenates_S16000000x1_S16000000x1_S16000000x2_d1) : (⟨S16000000x1, .i32⟩ : BufTy).Contents (Elt F) → (⟨S16000000x1, .i32⟩ : BufTy).Contents (Elt F) → (⟨S16000000x2, .i32⟩ : BufTy).Contents (Elt F)),
    binary main_v5 main_v15 main_v16 ((fun x i => Host.gather gather_S500000x1_S16000000x2_S16000000_n_01_n_n_01_1_11 x i) : (⟨S500000x1, .f32⟩ : BufTy).Contents (Elt F) → (⟨S16000000x2, .i32⟩ : BufTy).Contents (Elt F) → (⟨S16000000, .f32⟩ : BufTy).Contents (Elt F)),
    nullary main_cst (constant S_ .f32 0x00000000#32),
    unary main_cst main_v17 (broadcastInDim S500000 ![] bcast_S_S500000 : (⟨S_, .f32⟩ : BufTy).Contents (Elt F) → (⟨S500000, .f32⟩ : BufTy).Contents (Elt F)),
    unary main_v3 main_v18 (broadcastInDim S16000000x1 ![0] bcast_S16000000_S16000000x1_0 : (⟨S16000000, .i32⟩ : BufTy).Contents (Elt F) → (⟨S16000000x1, .i32⟩ : BufTy).Contents (Elt F)),
    ternary main_v17 main_v18 main_v16 main_v19 ((fun x i u => Host.scatterAdd scatter_S500000_S16000000x1_S16000000_n_0_0_1 x i u) : (⟨S500000, .f32⟩ : BufTy).Contents (Elt F) → (⟨S16000000x1, .i32⟩ : BufTy).Contents (Elt F) → (⟨S16000000, .f32⟩ : BufTy).Contents (Elt F) → (⟨S500000, .f32⟩ : BufTy).Contents (Elt F)),
    nullary main_cst_2 (constant S_ .f32 0x3F800000#32),
    unary main_cst_2 main_v20 (broadcastInDim S16000000 ![] bcast_S_S16000000 : (⟨S_, .f32⟩ : BufTy).Contents (Elt F) → (⟨S16000000, .f32⟩ : BufTy).Contents (Elt F)),
    nullary main_cst_3 (constant S_ .f32 0x00000000#32),
    unary main_cst_3 main_v21 (broadcastInDim S500000 ![] bcast_S_S500000 : (⟨S_, .f32⟩ : BufTy).Contents (Elt F) → (⟨S500000, .f32⟩ : BufTy).Contents (Elt F)),
    unary main_v3 main_v22 (broadcastInDim S16000000x1 ![0] bcast_S16000000_S16000000x1_0 : (⟨S16000000, .i32⟩ : BufTy).Contents (Elt F) → (⟨S16000000x1, .i32⟩ : BufTy).Contents (Elt F)),
    ternary main_v21 main_v22 main_v20 main_v23 ((fun x i u => Host.scatterAdd scatter_S500000_S16000000x1_S16000000_n_0_0_1 x i u) : (⟨S500000, .f32⟩ : BufTy).Contents (Elt F) → (⟨S16000000x1, .i32⟩ : BufTy).Contents (Elt F) → (⟨S16000000, .f32⟩ : BufTy).Contents (Elt F) → (⟨S500000, .f32⟩ : BufTy).Contents (Elt F)),
    nullary main_cst_4 (constant S_ .f32 0x3F800000#32),
    unary main_cst_4 main_v24 (broadcastInDim S500000 ![] bcast_S_S500000 : (⟨S_, .f32⟩ : BufTy).Contents (Elt F) → (⟨S500000, .f32⟩ : BufTy).Contents (Elt F)),
    binary main_v23 main_v24 main_v25 (maximumf : (⟨S500000, .f32⟩ : BufTy).Contents (Elt F) → (⟨S500000, .f32⟩ : BufTy).Contents (Elt F) → (⟨S500000, .f32⟩ : BufTy).Contents (Elt F)),
    binary main_v19 main_v25 main_v26 (Host.divf : (⟨S500000, .f32⟩ : BufTy).Contents (Elt F) → (⟨S500000, .f32⟩ : BufTy).Contents (Elt F) → (⟨S500000, .f32⟩ : BufTy).Contents (Elt F)),
    unary main_v26 main_v27 (broadcastInDim S500000x1 ![0] bcast_S500000_S500000x1_0 : (⟨S500000, .f32⟩ : BufTy).Contents (Elt F) → (⟨S500000x1, .f32⟩ : BufTy).Contents (Elt F)),
    unary main_arg4 main_v28 (broadcastInDim S1x1 ![1] bcast_S1_S1x1_1 : (⟨S1, .f32⟩ : BufTy).Contents (Elt F) → (⟨S1x1, .f32⟩ : BufTy).Contents (Elt F)),
    unary main_v28 main_v29 (broadcastInDim S500000x1 ![0, 1] bcast_S1x1_S500000x1_0_1 : (⟨S1x1, .f32⟩ : BufTy).Contents (Elt F) → (⟨S500000x1, .f32⟩ : BufTy).Contents (Elt F)),
    binary main_v27 main_v29 main_v30 (addf : (⟨S500000x1, .f32⟩ : BufTy).Contents (Elt F) → (⟨S500000x1, .f32⟩ : BufTy).Contents (Elt F) → (⟨S500000x1, .f32⟩ : BufTy).Contents (Elt F)),
    unary main_arg5 main_v31 ((transpose S17x1 [1, 0] · transposes_S1x17_S17x1_1_0) : (⟨S1x17, .f32⟩ : BufTy).Contents (Elt F) → (⟨S17x1, .f32⟩ : BufTy).Contents (Elt F)),
    binary main_arg0 main_v31 main_v32 ((fun l r => Host.dotGeneral dot_S500000x17_S17x1_S500000x1_1_0_0_1_n_n none l r) : (⟨S500000x17, .f32⟩ : BufTy).Contents (Elt F) → (⟨S17x1, .f32⟩ : BufTy).Contents (Elt F) → (⟨S500000x1, .f32⟩ : BufTy).Contents (Elt F)),
    binary main_v30 main_v32 main_v33 (addf : (⟨S500000x1, .f32⟩ : BufTy).Contents (Elt F) → (⟨S500000x1, .f32⟩ : BufTy).Contents (Elt F) → (⟨S500000x1, .f32⟩ : BufTy).Contents (Elt F)),
    nullary main_call0_cst (constant S_ .f32 0x00000000#32),
    unary main_call0_cst main_call0_v0 (broadcastInDim S500000x1 ![] bcast_S_S500000x1 : (⟨S_, .f32⟩ : BufTy).Contents (Elt F) → (⟨S500000x1, .f32⟩ : BufTy).Contents (Elt F)),
    binary main_v33 main_call0_v0 main_call0_v1 (cmpf .ogt : (⟨S500000x1, .f32⟩ : BufTy).Contents (Elt F) → (⟨S500000x1, .f32⟩ : BufTy).Contents (Elt F) → (⟨S500000x1, .i1⟩ : BufTy).Contents (Elt F)),
    nullary main_call0_cst_0 (constant S_ .f32 0x00000000#32),
    unary main_call0_cst_0 main_call0_v2 (broadcastInDim S500000x1 ![] bcast_S_S500000x1 : (⟨S_, .f32⟩ : BufTy).Contents (Elt F) → (⟨S500000x1, .f32⟩ : BufTy).Contents (Elt F)),
    binary main_v33 main_call0_v2 main_call0_v3 (cmpf .ogt : (⟨S500000x1, .f32⟩ : BufTy).Contents (Elt F) → (⟨S500000x1, .f32⟩ : BufTy).Contents (Elt F) → (⟨S500000x1, .i1⟩ : BufTy).Contents (Elt F)),
    nullary main_call0_cst_1 (constant S_ .f32 0x00000000#32),
    unary main_call0_cst_1 main_call0_call0_v0 (id : (⟨S_, .f32⟩ : BufTy).Contents (Elt F) → (⟨S_, .f32⟩ : BufTy).Contents (Elt F)),
    unary main_call0_call0_v0 main_call0_call0_v1 (broadcastInDim S500000x1 ![] bcast_S_S500000x1 : (⟨S_, .f32⟩ : BufTy).Contents (Elt F) → (⟨S500000x1, .f32⟩ : BufTy).Contents (Elt F)),
    ternary main_call0_v3 main_call0_call0_v1 main_v33 main_call0_v4 (select : (⟨S500000x1, .i1⟩ : BufTy).Contents (Elt F) → (⟨S500000x1, .f32⟩ : BufTy).Contents (Elt F) → (⟨S500000x1, .f32⟩ : BufTy).Contents (Elt F) → (⟨S500000x1, .f32⟩ : BufTy).Contents (Elt F)),
    unary main_call0_v4 main_call0_v5 (Host.expm1 : (⟨S500000x1, .f32⟩ : BufTy).Contents (Elt F) → (⟨S500000x1, .f32⟩ : BufTy).Contents (Elt F)),
    nullary main_call0_cst_2 (constant S_ .f32 0x3F800000#32),
    unary main_call0_cst_2 main_call0_v6 (broadcastInDim S500000x1 ![] bcast_S_S500000x1 : (⟨S_, .f32⟩ : BufTy).Contents (Elt F) → (⟨S500000x1, .f32⟩ : BufTy).Contents (Elt F)),
    binary main_call0_v6 main_call0_v5 main_call0_v7 (mulf : (⟨S500000x1, .f32⟩ : BufTy).Contents (Elt F) → (⟨S500000x1, .f32⟩ : BufTy).Contents (Elt F) → (⟨S500000x1, .f32⟩ : BufTy).Contents (Elt F)),
    ternary main_call0_v1 main_v33 main_call0_v7 main_v34 (select : (⟨S500000x1, .i1⟩ : BufTy).Contents (Elt F) → (⟨S500000x1, .f32⟩ : BufTy).Contents (Elt F) → (⟨S500000x1, .f32⟩ : BufTy).Contents (Elt F) → (⟨S500000x1, .f32⟩ : BufTy).Contents (Elt F)),
    unary main_arg6 main_v35 ((transpose S1x1 [1, 0] · transposes_S1x1_S1x1_1_0) : (⟨S1x1, .f32⟩ : BufTy).Contents (Elt F) → (⟨S1x1, .f32⟩ : BufTy).Contents (Elt F)),
    binary main_v34 main_v35 main_v36 ((fun l r => Host.dotGeneral dot_S500000x1_S1x1_S500000x1_1_0_0_1_n_n none l r) : (⟨S500000x1, .f32⟩ : BufTy).Contents (Elt F) → (⟨S1x1, .f32⟩ : BufTy).Contents (Elt F) → (⟨S500000x1, .f32⟩ : BufTy).Contents (Elt F)),
    unary main_arg7 main_v37 (broadcastInDim S1x1 ![1] bcast_S1_S1x1_1 : (⟨S1, .f32⟩ : BufTy).Contents (Elt F) → (⟨S1x1, .f32⟩ : BufTy).Contents (Elt F)),
    unary main_v37 main_v38 (broadcastInDim S500000x1 ![0, 1] bcast_S1x1_S500000x1_0_1 : (⟨S1x1, .f32⟩ : BufTy).Contents (Elt F) → (⟨S500000x1, .f32⟩ : BufTy).Contents (Elt F)),
    binary main_v36 main_v38 main_v39 (addf : (⟨S500000x1, .f32⟩ : BufTy).Contents (Elt F) → (⟨S500000x1, .f32⟩ : BufTy).Contents (Elt F) → (⟨S500000x1, .f32⟩ : BufTy).Contents (Elt F)) ]

/-- The same line with the unit's fifteen operations spelt over the call's typed buffer records, as the functions'
    bodies spell them. -/
abbrev opsT : List (HloOp τ sig (Elt F)) :=
  [ unary main_arg1 main_v0 ((extractStridedSlice S1x16000000 ![0, 0] · slices_S2x16000000_S1x16000000_0_0) : (⟨S2x16000000, .i32⟩ : BufTy).Contents (Elt F) → (⟨S1x16000000, .i32⟩ : BufTy).Contents (Elt F)),
    reshape main_v0 main_v1 rfl shapeCasts_S1x16000000_S16000000,
    unary main_arg1 main_v2 ((extractStridedSlice S1x16000000 ![1, 0] · slices_S2x16000000_S1x16000000_1_0) : (⟨S2x16000000, .i32⟩ : BufTy).Contents (Elt F) → (⟨S1x16000000, .i32⟩ : BufTy).Contents (Elt F)),
    reshape main_v2 main_v3 rfl shapeCasts_S1x16000000_S16000000,
    unary main_arg3 main_v4 ((transpose S17x1 [1, 0] · transposes_S1x17_S17x1_1_0) : (⟨S1x17, .f32⟩ : BufTy).Contents (Elt F) → (⟨S17x1, .f32⟩ : BufTy).Contents (Elt F)),
    binary main_arg0 main_v4 main_v5 ((fun l r => Host.dotGeneral dot_S500000x17_S17x1_S500000x1_1_0_0_1_n_n none l r) : (⟨S500000x17, .f32⟩ : BufTy).Contents (Elt F) → (⟨S17x1, .f32⟩ : BufTy).Contents (Elt F) → (⟨S500000x1, .f32⟩ : BufTy).Contents (Elt F)),
    nullary main_c (constantI S_ 32 0#32),
    unary main_c main_v6 (broadcastInDim S16000000 ![] bcast_S_S16000000 : (⟨S_, .i32⟩ : BufTy).Contents (Elt F) → (⟨S16000000, .i32⟩ : BufTy).Contents (Elt F)),
    binary main_v1 main_v6 main_v7 (cmpi .slt : (⟨S16000000, .i32⟩ : BufTy).Contents (Elt F) → (⟨S16000000, .i32⟩ : BufTy).Contents (Elt F) → (⟨S16000000, .i1⟩ : BufTy).Contents (Elt F)),
    nullary main_c_0 (constantI S_ 32 500000#32),
    unary main_c_0 main_v8 (broadcastInDim S16000000 ![] bcast_S_S16000000 : (⟨S_, .i32⟩ : BufTy).Contents (Elt F) → (⟨S16000000, .i32⟩ : BufTy).Contents (Elt F)),
    binary main_v1 main_v8 main_v9 (addi : (⟨S16000000, .i32⟩ : BufTy).Contents (Elt F) → (⟨S16000000, .i32⟩ : BufTy).Contents (Elt F) → (⟨S16000000, .i32⟩ : BufTy).Contents (Elt F)),
    ternary main_v7 main_v9 main_v1 main_v10 (select : (⟨S16000000, .i1⟩ : BufTy).Contents (Elt F) → (⟨S16000000, .i32⟩ : BufTy).Contents (Elt F) → (⟨S16000000, .i32⟩ : BufTy).Contents (Elt F) → (⟨S16000000, .i32⟩ : BufTy).Contents (Elt F)),
    nullary main_c_1 (constantI S_ 32 0#32),
    unary main_c_1 main_v11 (broadcastInDim S16000000 ![] bcast_S_S16000000 : (⟨S_, .i32⟩ : BufTy).Contents (Elt F) → (⟨S16000000, .i32⟩ : BufTy).Contents (Elt F)),
    unary main_v11 main_v12 (id : (⟨S16000000, .i32⟩ : BufTy).Contents (Elt F) → (⟨S16000000, .i32⟩ : BufTy).Contents (Elt F)),
    unary main_v10 main_v13 (broadcastInDim S16000000x1 ![0] bcast_S16000000_S16000000x1_0 : (⟨S16000000, .i32⟩ : BufTy).Contents (Elt F) → (⟨S16000000x1, .i32⟩ : BufTy).Contents (Elt F)),
    unary main_v12 main_v14 (broadcastInDim S16000000x1 ![0] bcast_S16000000_S16000000x1_0 : (⟨S16000000, .i32⟩ : BufTy).Contents (Elt F) → (⟨S16000000x1, .i32⟩ : BufTy).Contents (Elt F)),
    binary main_v13 main_v14 main_v15 ((fun a b => concatenate S16000000x2 1 [⟨S16000000x1, a⟩, ⟨S16000000x1, b⟩] concatenates_S16000000x1_S16000000x1_S16000000x2_d1) : (⟨S16000000x1, .i32⟩ : BufTy).Contents (Elt F) → (⟨S16000000x1, .i32⟩ : BufTy).Contents (Elt F) → (⟨S16000000x2, .i32⟩ : BufTy).Contents (Elt F)),
    binary main_v5 main_v15 main_v16 ((fun x i => Host.gather gather_S500000x1_S16000000x2_S16000000_n_01_n_n_01_1_11 x i) : (⟨S500000x1, .f32⟩ : BufTy).Contents (Elt F) → (⟨S16000000x2, .i32⟩ : BufTy).Contents (Elt F) → (⟨S16000000, .f32⟩ : BufTy).Contents (Elt F)),
    nullary main_cst (constant S_ .f32 0x00000000#32),
    unary main_cst main_v17 (broadcastInDim S500000 ![] bcast_S_S500000 : (⟨S_, .f32⟩ : BufTy).Contents (Elt F) → (⟨S500000, .f32⟩ : BufTy).Contents (Elt F)),
    unary main_v3 main_v18 (broadcastInDim S16000000x1 ![0] bcast_S16000000_S16000000x1_0 : (⟨S16000000, .i32⟩ : BufTy).Contents (Elt F) → (⟨S16000000x1, .i32⟩ : BufTy).Contents (Elt F)),
    ternary main_v17 main_v18 main_v16 main_v19 ((fun x i u => Host.scatterAdd scatter_S500000_S16000000x1_S16000000_n_0_0_1 x i u) : (⟨S500000, .f32⟩ : BufTy).Contents (Elt F) → (⟨S16000000x1, .i32⟩ : BufTy).Contents (Elt F) → (⟨S16000000, .f32⟩ : BufTy).Contents (Elt F) → (⟨S500000, .f32⟩ : BufTy).Contents (Elt F)),
    nullary main_cst_2 (constant S_ .f32 0x3F800000#32),
    unary main_cst_2 main_v20 (broadcastInDim S16000000 ![] bcast_S_S16000000 : (⟨S_, .f32⟩ : BufTy).Contents (Elt F) → (⟨S16000000, .f32⟩ : BufTy).Contents (Elt F)),
    nullary main_cst_3 (constant S_ .f32 0x00000000#32),
    unary main_cst_3 main_v21 (broadcastInDim S500000 ![] bcast_S_S500000 : (⟨S_, .f32⟩ : BufTy).Contents (Elt F) → (⟨S500000, .f32⟩ : BufTy).Contents (Elt F)),
    unary main_v3 main_v22 (broadcastInDim S16000000x1 ![0] bcast_S16000000_S16000000x1_0 : (⟨S16000000, .i32⟩ : BufTy).Contents (Elt F) → (⟨S16000000x1, .i32⟩ : BufTy).Contents (Elt F)),
    ternary main_v21 main_v22 main_v20 main_v23 ((fun x i u => Host.scatterAdd scatter_S500000_S16000000x1_S16000000_n_0_0_1 x i u) : (⟨S500000, .f32⟩ : BufTy).Contents (Elt F) → (⟨S16000000x1, .i32⟩ : BufTy).Contents (Elt F) → (⟨S16000000, .f32⟩ : BufTy).Contents (Elt F) → (⟨S500000, .f32⟩ : BufTy).Contents (Elt F)),
    nullary main_cst_4 (constant S_ .f32 0x3F800000#32),
    unary main_cst_4 main_v24 (broadcastInDim S500000 ![] bcast_S_S500000 : (⟨S_, .f32⟩ : BufTy).Contents (Elt F) → (⟨S500000, .f32⟩ : BufTy).Contents (Elt F)),
    binary main_v23 main_v24 main_v25 (maximumf : (⟨S500000, .f32⟩ : BufTy).Contents (Elt F) → (⟨S500000, .f32⟩ : BufTy).Contents (Elt F) → (⟨S500000, .f32⟩ : BufTy).Contents (Elt F)),
    binary main_v19 main_v25 main_v26 (Host.divf : (⟨S500000, .f32⟩ : BufTy).Contents (Elt F) → (⟨S500000, .f32⟩ : BufTy).Contents (Elt F) → (⟨S500000, .f32⟩ : BufTy).Contents (Elt F)),
    unary main_v26 main_v27 (broadcastInDim S500000x1 ![0] bcast_S500000_S500000x1_0 : (⟨S500000, .f32⟩ : BufTy).Contents (Elt F) → (⟨S500000x1, .f32⟩ : BufTy).Contents (Elt F)),
    unary main_arg4 main_v28 (broadcastInDim S1x1 ![1] bcast_S1_S1x1_1 : (⟨S1, .f32⟩ : BufTy).Contents (Elt F) → (⟨S1x1, .f32⟩ : BufTy).Contents (Elt F)),
    unary main_v28 main_v29 (broadcastInDim S500000x1 ![0, 1] bcast_S1x1_S500000x1_0_1 : (⟨S1x1, .f32⟩ : BufTy).Contents (Elt F) → (⟨S500000x1, .f32⟩ : BufTy).Contents (Elt F)),
    binary main_v27 main_v29 main_v30 (addf : (⟨S500000x1, .f32⟩ : BufTy).Contents (Elt F) → (⟨S500000x1, .f32⟩ : BufTy).Contents (Elt F) → (⟨S500000x1, .f32⟩ : BufTy).Contents (Elt F)),
    unary main_arg5 main_v31 ((transpose S17x1 [1, 0] · transposes_S1x17_S17x1_1_0) : (⟨S1x17, .f32⟩ : BufTy).Contents (Elt F) → (⟨S17x1, .f32⟩ : BufTy).Contents (Elt F)),
    binary main_arg0 main_v31 main_v32 ((fun l r => Host.dotGeneral dot_S500000x17_S17x1_S500000x1_1_0_0_1_n_n none l r) : (⟨S500000x17, .f32⟩ : BufTy).Contents (Elt F) → (⟨S17x1, .f32⟩ : BufTy).Contents (Elt F) → (⟨S500000x1, .f32⟩ : BufTy).Contents (Elt F)),
    binary main_v30 main_v32 main_v33 (addf : (⟨S500000x1, .f32⟩ : BufTy).Contents (Elt F) → (⟨S500000x1, .f32⟩ : BufTy).Contents (Elt F) → (⟨S500000x1, .f32⟩ : BufTy).Contents (Elt F)),
    TRef.nullary main_call0.cst (constant S_ .f32 0x00000000#32),
    TRef.unary main_call0.cst main_call0.v0 (broadcastInDim S500000x1 ![] bcast_S_S500000x1),
    TRef.binary (.of main_v33) main_call0.v0 main_call0.v1 (cmpf .ogt),
    TRef.nullary main_call0.cst_0 (constant S_ .f32 0x00000000#32),
    TRef.unary main_call0.cst_0 main_call0.v2 (broadcastInDim S500000x1 ![] bcast_S_S500000x1),
    TRef.binary (.of main_v33) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S500000x1 ![] bcast_S_S500000x1),
    TRef.ternary main_call0.v3 main_call0.call0.v1 (.of main_v33) main_call0.call0.v2 select,
    TRef.unary main_call0.call0.v2 main_call0.v5 Host.expm1,
    TRef.nullary main_call0.cst_2 (constant S_ .f32 0x3F800000#32),
    TRef.unary main_call0.cst_2 main_call0.v6 (broadcastInDim S500000x1 ![] bcast_S_S500000x1),
    TRef.binary main_call0.v6 main_call0.v5 main_call0.v7 mulf,
    TRef.ternary main_call0.v1 (.of main_v33) main_call0.v7 main_call0.call1.v0 select,
    unary main_arg6 main_v35 ((transpose S1x1 [1, 0] · transposes_S1x1_S1x1_1_0) : (⟨S1x1, .f32⟩ : BufTy).Contents (Elt F) → (⟨S1x1, .f32⟩ : BufTy).Contents (Elt F)),
    binary main_v34 main_v35 main_v36 ((fun l r => Host.dotGeneral dot_S500000x1_S1x1_S500000x1_1_0_0_1_n_n none l r) : (⟨S500000x1, .f32⟩ : BufTy).Contents (Elt F) → (⟨S1x1, .f32⟩ : BufTy).Contents (Elt F) → (⟨S500000x1, .f32⟩ : BufTy).Contents (Elt F)),
    unary main_arg7 main_v37 (broadcastInDim S1x1 ![1] bcast_S1_S1x1_1 : (⟨S1, .f32⟩ : BufTy).Contents (Elt F) → (⟨S1x1, .f32⟩ : BufTy).Contents (Elt F)),
    unary main_v37 main_v38 (broadcastInDim S500000x1 ![0, 1] bcast_S1x1_S500000x1_0_1 : (⟨S1x1, .f32⟩ : BufTy).Contents (Elt F) → (⟨S500000x1, .f32⟩ : BufTy).Contents (Elt F)),
    binary main_v36 main_v38 main_v39 (addf : (⟨S500000x1, .f32⟩ : BufTy).Contents (Elt F) → (⟨S500000x1, .f32⟩ : BufTy).Contents (Elt F) → (⟨S500000x1, .f32⟩ : BufTy).Contents (Elt F)) ]

/-- The two spellings are one list: at these literal buffers a typed reference's transport is the identity. -/
theorem opsT_eq : (opsT : List (HloOp τ sig (Elt F))) = ops := rfl

set_option maxRecDepth 1024 in
/-- The program is that straight line: the three functions unfolded at their calls, sequencing reassociated. -/
theorem main_eqT (c : Dev nD) : main (F := F) c = seq opsT := by
  simp only [main, fn_elu.body, fn_where.body, fn_where_0.body, seq, bind_assoc, pure_bind]

theorem main_eq (c : Dev nD) : main (F := F) c = seq ops := (main_eqT c).trans (congrArg seq opsT_eq)

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., binary_bufs_sub .., unary_bufs_sub .., unary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., binary_bufs_sub .., unary_bufs_sub .., unary_bufs_sub .., binary_bufs_sub ..⟩

/-- Every weakly fair execution of the program terminates with each buffer at the fold of the operations over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Line

/-! ## The result as a term of the seven arrays, stage by stage -/

section Stages

/-- Row 0 of the edge array, flat: the source words. -/
def srcWords (ei : IVec S2x16000000 32) : IVec S16000000 32 :=
  shapeCast S16000000 (extractStridedSlice S1x16000000 ![0, 0] ei slices_S2x16000000_S1x16000000_0_0) shapeCasts_S1x16000000_S16000000

/-- Row 1 of the edge array, flat: the destination words. -/
def dstWords (ei : IVec S2x16000000 32) : IVec S16000000 32 :=
  shapeCast S16000000 (extractStridedSlice S1x16000000 ![1, 0] ei slices_S2x16000000_S1x16000000_1_0) shapeCasts_S1x16000000_S16000000

/-- The feature array against a weight row, transposed to a column: one column of products' sums. -/
def proj (x : FVec Ideal S500000x17 .f32) (w : FVec Ideal S1x17 .f32) : FVec Ideal S500000x1 .f32 :=
  Host.dotGeneral dot_S500000x17_S17x1_S500000x1_1_0_0_1_n_n none x (transpose S17x1 [1, 0] w transposes_S1x17_S17x1_1_0)

/-- The source words with the negative ones moved up by the node count. -/
def wrapped (ei : IVec S2x16000000 32) : IVec S16000000 32 :=
  select (cmpi .slt (srcWords ei) (broadcastInDim S16000000 ![] bcast_S_S16000000 (constantI S_ 32 0#32)))
    (addi (srcWords ei) (broadcastInDim S16000000 ![] bcast_S_S16000000 (constantI S_ 32 500000#32))) (srcWords ei)

/-- The table of start indices: per edge the wrapped source word and a zero. -/
def startTable (ei : IVec S2x16000000 32) : IVec S16000000x2 32 :=
  concatenate S16000000x2 1
    [⟨S16000000x1, broadcastInDim S16000000x1 ![0] bcast_S16000000_S16000000x1_0 (wrapped ei)⟩,
     ⟨S16000000x1, broadcastInDim S16000000x1 ![0] bcast_S16000000_S16000000x1_0
        (id (broadcastInDim S16000000 ![] bcast_S_S16000000 (constantI S_ 32 0#32)))⟩]
    concatenates_S16000000x1_S16000000x1_S16000000x2_d1

/-- The messages: the neighbour projection gathered at the start table. -/
def messages (x : FVec Ideal S500000x17 .f32) (ei : IVec S2x16000000 32) (wl : FVec Ideal S1x17 .f32) : FVec Ideal S16000000 .f32 :=
  Host.gather gather_S500000x1_S16000000x2_S16000000_n_01_n_n_01_1_11 (proj x wl) (startTable ei)

/-- The destination words as the column the scatters take. -/
def dstColumn (ei : IVec S2x16000000 32) : IVec S16000000x1 32 :=
  broadcastInDim S16000000x1 ![0] bcast_S16000000_S16000000x1_0 (dstWords ei)

/-- The messages accumulated at their destinations, from zeros. -/
def aggregate (x : FVec Ideal S500000x17 .f32) (ei : IVec S2x16000000 32) (wl : FVec Ideal S1x17 .f32) : FVec Ideal S500000 .f32 :=
  Host.scatterAdd scatter_S500000_S16000000x1_S16000000_n_0_0_1
    (broadcastInDim S500000 ![] bcast_S_S500000 (constant (F := Ideal) S_ .f32 0x00000000#32)) (dstColumn ei) (messages x ei wl)

/-- Ones accumulated at the destinations, from zeros: the in-degrees. -/
def degree (ei : IVec S2x16000000 32) : FVec Ideal S500000 .f32 :=
  Host.scatterAdd scatter_S500000_S16000000x1_S16000000_n_0_0_1
    (broadcastInDim S500000 ![] bcast_S_S500000 (constant (F := Ideal) S_ .f32 0x00000000#32)) (dstColumn ei)
    (broadcastInDim S16000000 ![] bcast_S_S16000000 (constant (F := Ideal) S_ .f32 0x3F800000#32))

/-- The mean: the aggregate over the in-degree, the degree read as at least one. -/
def meanAgg (x : FVec Ideal S500000x17 .f32) (ei : IVec S2x16000000 32) (wl : FVec Ideal S1x17 .f32) : FVec Ideal S500000 .f32 :=
  Host.divf (aggregate x ei wl)
    (maximumf (degree ei) (broadcastInDim S500000 ![] bcast_S_S500000 (constant (F := Ideal) S_ .f32 0x3F800000#32)))

/-- The mean as a column plus the bias plus the node's own projection. -/
def hidden (x : FVec Ideal S500000x17 .f32) (ei : IVec S2x16000000 32) (wl : FVec Ideal S1x17 .f32) (bl : FVec Ideal S1 .f32)
    (wr : FVec Ideal S1x17 .f32) : FVec Ideal S500000x1 .f32 :=
  addf (addf (broadcastInDim S500000x1 ![0] bcast_S500000_S500000x1_0 (meanAgg x ei wl))
      (broadcastInDim S500000x1 ![0, 1] bcast_S1x1_S500000x1_0_1 (broadcastInDim S1x1 ![1] bcast_S1_S1x1_1 bl)))
    (proj x wr)

/-- The exponential linear unit as the program spells it: two selections on the sign bit around the exponential less one. -/
def eluT (h : FVec Ideal S500000x1 .f32) : FVec Ideal S500000x1 .f32 :=
  select (cmpf .ogt h (broadcastInDim S500000x1 ![] bcast_S_S500000x1 (constant (F := Ideal) S_ .f32 0x00000000#32))) h
    (mulf (broadcastInDim S500000x1 ![] bcast_S_S500000x1 (constant (F := Ideal) S_ .f32 0x3F800000#32))
      (Host.expm1
        (select (cmpf .ogt h (broadcastInDim S500000x1 ![] bcast_S_S500000x1 (constant (F := Ideal) S_ .f32 0x00000000#32)))
          (broadcastInDim S500000x1 ![] bcast_S_S500000x1 (id (constant (F := Ideal) S_ .f32 0x00000000#32))) h)))

/-- The whole result: the unit's output against the transposed output weight, plus the output bias as a column. -/
def refOut (x : FVec Ideal S500000x17 .f32) (ei : IVec S2x16000000 32) (wl : FVec Ideal S1x17 .f32) (bl : FVec Ideal S1 .f32)
    (wr : FVec Ideal S1x17 .f32) (wo : FVec Ideal S1x1 .f32) (bo : FVec Ideal S1 .f32) : FVec Ideal S500000x1 .f32 :=
  addf
    (Host.dotGeneral dot_S500000x1_S1x1_S500000x1_1_0_0_1_n_n none (eluT (hidden x ei wl bl wr))
      (transpose S1x1 [1, 0] wo transposes_S1x1_S1x1_1_0))
    (broadcastInDim S500000x1 ![0, 1] bcast_S1x1_S500000x1_0_1 (broadcastInDim S1x1 ![1] bcast_S1_S1x1_1 bo))

end Stages

/-! ## Each stage read at an index -/

section Reads

/-- A source word is the edge array's row 0 at the edge. -/
theorem srcWords_apply (ei : IVec S2x16000000 32) (e : Fin 16000000) :
    srcWords ei (ix1 e) = ei (ix2 (0 : Fin 2) e) := by
  unfold srcWords
  refine (shapeCast_apply _ shapeCasts_S1x16000000_S16000000 (ix1 e) (ix2 (0 : Fin 1) e) (by
    rw [Shape.rowMajor_val_two, Shape.rowMajor_val_one]; show 0 * 16000000 + e.val = e.val; omega)).trans ?_
  exact extractStridedSlice_apply _ _ slices_S2x16000000_S1x16000000_0_0 (ix2 (0 : Fin 1) e) (ix2 (0 : Fin 2) e) (by
    intro a
    match a with
    | ⟨0, _⟩ => rfl
    | ⟨1, _⟩ => show e.val = 0 + e.val; omega)

/-- A destination word is the edge array's row 1 at the edge. -/
theorem dstWords_apply (ei : IVec S2x16000000 32) (e : Fin 16000000) :
    dstWords ei (ix1 e) = ei (ix2 (1 : Fin 2) e) := by
  unfold dstWords
  refine (shapeCast_apply _ shapeCasts_S1x16000000_S16000000 (ix1 e) (ix2 (0 : Fin 1) e) (by
    rw [Shape.rowMajor_val_two, Shape.rowMajor_val_one]; show 0 * 16000000 + e.val = e.val; omega)).trans ?_
  exact extractStridedSlice_apply _ _ slices_S2x16000000_S1x16000000_1_0 (ix2 (0 : Fin 1) e) (ix2 (1 : Fin 2) e) (by
    intro a
    match a with
    | ⟨0, _⟩ => rfl
    | ⟨1, _⟩ => show e.val = 0 + e.val; omega)

/-- The wrapped source word at an edge is the specification's wrap of the edge array's row-0 word. -/
theorem wrapped_apply (ei : IVec S2x16000000 32) (e : Fin 16000000) :
    wrapped ei (ix1 e) = Cert.Sage.wrapWord (ei (ix2 (0 : Fin 2) e)) := by
  show Scalar.select (IntOp.cmpi .slt (srcWords ei (ix1 e)) 0#32) (IntOp.addi (srcWords ei (ix1 e)) 500000#32)
      (srcWords ei (ix1 e)) = _
  rw [srcWords_apply]
  rfl

end Reads

section Reads2

/-- Entry (n, 0) of a projection is the sum of the 17 products of row n with the weight row. -/
theorem proj_apply (x : FVec Ideal S500000x17 .f32) (w : FVec Ideal S1x17 .f32) (n : Fin 500000) :
    proj x w (ix2 n (0 : Fin 1)) = Cert.Sage.rowDot x w n := by
  unfold proj Cert.Sage.rowDot
  simp only [Host.dotGeneral]
  rw [Ideal.dotGeneral_apply,
    ← Equiv.sum_comp (contrEquiv1 dot_S500000x17_S17x1_S500000x1_1_0_0_1_n_n 17 rfl rfl).symm]
  refine Finset.sum_congr rfl fun k _ => ?_
  congr 1
  · congr 1
    funext a
    match a with
    | ⟨0, _⟩ => rfl
    | ⟨1, _⟩ =>
      apply Fin.ext
      exact contrEquiv1_symm_val dot_S500000x17_S17x1_S500000x1_1_0_0_1_n_n 17 rfl rfl k
  · refine transpose_apply [1, 0] w transposes_S1x17_S17x1_1_0 _ (ix2 (0 : Fin 1) k) ?_
    intro b
    match b with
    | ⟨0, _⟩ => exact (contrEquiv1_symm_val dot_S500000x17_S17x1_S500000x1_1_0_0_1_n_n 17 rfl rfl k).symm
    | ⟨1, _⟩ => rfl

/-- Column 0 of the start table at an edge is the wrapped source word. -/
theorem startTable_apply0 (ei : IVec S2x16000000 32) (e : Fin 16000000) :
    startTable ei (ix2 e (0 : Fin 2)) = wrapped ei (ix1 e) := by
  unfold startTable
  refine (concatenate_pair_apply_left (t := S16000000x2) (s₁ := S16000000x1) (s₂ := S16000000x1) (1 : Fin 2) _ _ concatenates_S16000000x1_S16000000x1_S16000000x2_d1
    (ix2 e (0 : Fin 2)) rfl (ix2 e (0 : Fin 1)) ?_).trans ?_
  · intro b
    match b with
    | ⟨0, _⟩ => rfl
    | ⟨1, _⟩ => rfl
  · exact broadcastInDim_apply (s := S16000000) (t := S16000000x1) ![0] bcast_S16000000_S16000000x1_0 (wrapped ei) (ix2 e (0 : Fin 1)) (ix1 e) (by
      intro a
      match a with
      | ⟨0, _⟩ => rfl)

/-- The message of an edge is its source node's row against the neighbour weights. -/
theorem messages_apply (x : FVec Ideal S500000x17 .f32) (ei : IVec S2x16000000 32) (wl : FVec Ideal S1x17 .f32)
    (e : Fin 16000000) : messages x ei wl (ix1 e) = Cert.Sage.msg x wl ei (ix1 e) := by
  have h1 := startTable_apply0 ei e
  have h2 := wrapped_apply ei e
  unfold messages
  rw [Idealize.ShloMosaic.LibGather2.gather_col_apply gather_S500000x1_S16000000x2_S16000000_n_01_n_n_01_1_11 rfl rfl rfl rfl
    (proj x wl) (startTable ei) e (by decide), proj_apply]
  unfold Cert.Sage.msg Cert.Sage.srcNode
  congr 1
  apply Fin.ext
  show min (startTable ei (ix2 e (0 : Fin 2))).toInt.toNat (500000 - 1) = min (Cert.Sage.wrapWord (ei (ix2 (0 : Fin 2) e))).toInt.toNat 499999
  rw [h1, h2]

/-- The destination column is the specification's. -/
theorem dstColumn_eq (ei : IVec S2x16000000 32) : dstColumn ei = Cert.Sage.dstCol ei := by
  funext j
  unfold dstColumn
  refine (broadcastInDim_apply (s := S16000000) (t := S16000000x1) ![0] bcast_S16000000_S16000000x1_0 (dstWords ei) j
    (ix1 (⟨(j 0).val, idx2_lt0 j⟩ : Fin 16000000)) (by
      intro a
      match a with
      | ⟨0, _⟩ => rfl)).trans ?_
  rw [dstWords_apply]
  rfl

/-- The program's scatter record is the specification's. -/
theorem scatter_eq : scatter_S500000_S16000000x1_S16000000_n_0_0_1 = Cert.Sage.dS := rfl

/-- On the extended reals the accumulating scatter is the exact sum, whatever the schedule. -/
theorem scatterAdd_ideal {s si u : Shape} {w : Nat} (d : ScatterDims s si u) (x : s.Idx → EReal) (idx : IVec si w)
    (upd : u.Idx → EReal) :
    Host.scatterAdd (F := Ideal) (φ := .f32) d x idx upd = Ideal.hostScatterAdd d x idx upd := rfl

attribute [local irreducible] Ideal.hostScatterAdd Host.scatterAdd Host.gather

/-- The aggregate is the specification's accumulated messages. -/
theorem aggregate_eq (x : FVec Ideal S500000x17 .f32) (ei : IVec S2x16000000 32) (wl : FVec Ideal S1x17 .f32) :
    aggregate x ei wl
      = Ideal.hostScatterAdd Cert.Sage.dS (fun _ => (0 : EReal)) (Cert.Sage.dstCol ei) (Cert.Sage.msg x wl ei) := by
  have hA : (broadcastInDim S500000 ![] bcast_S_S500000 (constant (F := Ideal) S_ .f32 0x00000000#32) : FVec Ideal S500000 .f32)
      = fun _ => (0 : EReal) := by
    funext i
    exact Ideal.ofBits_zero_f32
  have hC : messages x ei wl = Cert.Sage.msg x wl ei := by
    funext j
    rw [eq_ix1 j]
    exact messages_apply x ei wl _
  unfold aggregate
  rw [scatterAdd_ideal, scatter_eq, dstColumn_eq, hA, hC]

/-- The degree is the specification's accumulated ones. -/
theorem degree_eq (ei : IVec S2x16000000 32) :
    degree ei = Ideal.hostScatterAdd Cert.Sage.dS (fun _ => (0 : EReal)) (Cert.Sage.dstCol ei) (fun _ => (1 : EReal)) := by
  have hA : (broadcastInDim S500000 ![] bcast_S_S500000 (constant (F := Ideal) S_ .f32 0x00000000#32) : FVec Ideal S500000 .f32)
      = fun _ => (0 : EReal) := by
    funext i
    exact Ideal.ofBits_zero_f32
  have hC : (broadcastInDim S16000000 ![] bcast_S_S16000000 (constant (F := Ideal) S_ .f32 0x3F800000#32) : FVec Ideal S16000000 .f32)
      = fun _ => (1 : EReal) := by
    funext j
    exact Ideal.ofBits_one_f32
  unfold degree
  rw [scatterAdd_ideal, scatter_eq, dstColumn_eq, hA, hC]

/-- The unit at an element: the element where it is above zero, its exponential less one elsewhere. -/
theorem eluT_apply (h : FVec Ideal S500000x1 .f32) (i : S500000x1.Idx) :
    eluT h i = Scalar.select (Ideal.cmp .ogt (h i) 0) (h i) (Ideal.exp (h i) - 1) := by
  show Scalar.select (Ideal.cmp .ogt (h i) (Ideal.ofBits .f32 0x00000000#32)) (h i)
      (Ideal.ofBits .f32 0x3F800000#32
        * (Ideal.exp (Scalar.select (Ideal.cmp .ogt (h i) (Ideal.ofBits .f32 0x00000000#32)) (Ideal.ofBits .f32 0x00000000#32) (h i)) - 1)) = _
  rw [Ideal.ofBits_zero_f32, Ideal.ofBits_one_f32, one_mul]
  by_cases hb : Ideal.cmp .ogt (h i) 0 = 1#1
  · simp only [hb, select_one]
  · simp only [eq_zero_of_ne_one hb, select_zero]

/-- A one-element array spread over a column reads its element everywhere. -/
theorem biasCol_apply (b : FVec Ideal S1 .f32) (i : S500000x1.Idx) :
    broadcastInDim S500000x1 ![0, 1] bcast_S1x1_S500000x1_0_1 (broadcastInDim S1x1 ![1] bcast_S1_S1x1_1 b) i = b (ix1 (0 : Fin 1)) := by
  refine (broadcastInDim_apply (s := S1x1) (t := S500000x1) ![0, 1] bcast_S1x1_S500000x1_0_1 _ i (ix2 (0 : Fin 1) (0 : Fin 1)) (by
    intro a
    match a with
    | ⟨0, _⟩ => rfl
    | ⟨1, _⟩ => rfl)).trans ?_
  exact broadcastInDim_apply (s := S1) (t := S1x1) ![1] bcast_S1_S1x1_1 b (ix2 (0 : Fin 1) (0 : Fin 1)) (ix1 (0 : Fin 1)) (by
    intro a
    match a with
    | ⟨0, _⟩ => rfl)

/-- The contraction of a column with the transposed one-by-one weight over its axis of extent one: one product. -/
theorem outDot_apply (y : FVec Ideal S500000x1 .f32) (wo : FVec Ideal S1x1 .f32) (n : Fin 500000) :
    Host.dotGeneral dot_S500000x1_S1x1_S500000x1_1_0_0_1_n_n none y (transpose S1x1 [1, 0] wo transposes_S1x1_S1x1_1_0) (ix2 n (0 : Fin 1))
      = y (ix2 n (0 : Fin 1)) * wo (ix2 (0 : Fin 1) (0 : Fin 1)) := by
  simp only [Host.dotGeneral]
  rw [Ideal.dotGeneral_apply,
    ← Equiv.sum_comp (contrEquiv1 dot_S500000x1_S1x1_S500000x1_1_0_0_1_n_n 1 rfl rfl).symm, Fin.sum_univ_one]
  congr 1
  · congr 1
    funext a
    match a with
    | ⟨0, _⟩ => rfl
    | ⟨1, _⟩ =>
      apply Fin.ext
      exact contrEquiv1_symm_val dot_S500000x1_S1x1_S500000x1_1_0_0_1_n_n 1 rfl rfl 0
  · refine transpose_apply [1, 0] wo transposes_S1x1_S1x1_1_0 _ (ix2 (0 : Fin 1) (0 : Fin 1)) ?_
    intro b
    match b with
    | ⟨0, _⟩ => exact (contrEquiv1_symm_val dot_S500000x1_S1x1_S500000x1_1_0_0_1_n_n 1 rfl rfl 0).symm
    | ⟨1, _⟩ => rfl

/-- The host's division at an element, on the extended reals. -/
theorem hostDivf_apply {s : Shape} (a b : FVec Ideal s .f32) (i : s.Idx) : Host.divf a b i = Ideal.div (a i) (b i) := rfl

/-- The constant one spread over the nodes reads one everywhere. -/
theorem oneCol_apply (i : S500000.Idx) :
    broadcastInDim S500000 ![] bcast_S_S500000 (constant (F := Ideal) S_ .f32 0x3F800000#32) i = (1 : EReal) :=
  Ideal.ofBits_one_f32

/-- The hidden value of a node: the mean of its messages, the bias, its own projection. -/
theorem hidden_apply (x : FVec Ideal S500000x17 .f32) (ei : IVec S2x16000000 32) (wl : FVec Ideal S1x17 .f32) (bl : FVec Ideal S1 .f32)
    (wr : FVec Ideal S1x17 .f32) (n : Fin 500000) :
    hidden x ei wl bl wr (ix2 n (0 : Fin 1))
      = Ideal.div (aggregate x ei wl (ix1 n)) (max (degree ei (ix1 n)) 1) + bl (ix1 (0 : Fin 1)) + Cert.Sage.rowDot x wr n := by
  unfold hidden
  rw [addf_apply, addf_apply, proj_apply, biasCol_apply,
    broadcastInDim_apply (s := S500000) (t := S500000x1) ![0] bcast_S500000_S500000x1_0 (meanAgg x ei wl) (ix2 n (0 : Fin 1)) (ix1 n) (by
      intro a
      match a with
      | ⟨0, _⟩ => rfl)]
  unfold meanAgg
  rw [hostDivf_apply, maximumf_apply, oneCol_apply]

/-- THE VALUE: the program's term is the specification's result, node by node. -/
theorem refOut_eq (x : FVec Ideal S500000x17 .f32) (ei : IVec S2x16000000 32) (wl : FVec Ideal S1x17 .f32) (bl : FVec Ideal S1 .f32)
    (wr : FVec Ideal S1x17 .f32) (wo : FVec Ideal S1x1 .f32) (bo : FVec Ideal S1 .f32) :
    refOut x ei wl bl wr wo bo = Cert.Sage.G Cert.Sage.dS x ei wl bl wr wo bo := by
  funext i
  obtain ⟨n, rfl⟩ : ∃ n : Fin 500000, i = ix2 n (0 : Fin 1) := ⟨i 0, by
    funext a
    match a with
    | ⟨0, _⟩ => rfl
    | ⟨1, _⟩ => exact Subsingleton.elim (α := Fin 1) _ _⟩
  unfold refOut
  rw [addf_apply, outDot_apply, biasCol_apply, eluT_apply, hidden_apply, aggregate_eq, degree_eq]
  rfl

end Reads2

/-! ## The fold at the result buffer -/

set_option maxRecDepth 8192 in
set_option maxHeartbeats 400000 in
/-- The fold of the operations at the result buffer is that term of the seven arguments' contents: each operation's
    result rewritten at its own buffer to its function's value and at any other buffer to what was there. -/
theorem out_eq (V : Valuation τ sig (Elt Ideal)) :
    after ops V (main_v39 : DevRef τ sig)
      = refOut (V (main_arg0 : DevRef τ sig)) (V (main_arg1 : DevRef τ sig)) (V (main_arg3 : DevRef τ sig))
          (V (main_arg4 : DevRef τ sig)) (V (main_arg5 : DevRef τ sig)) (V (main_arg6 : DevRef τ sig))
          (V (main_arg7 : DevRef τ sig)) := by
  after_results_simp
  -- the same for the two operands inside the concatenation's list of pieces
  repeat (first
    | rw [nullary_result] | rw [unary_result] | rw [binary_result] | rw [ternary_result]
    | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  unfold refOut eluT hidden meanAgg aggregate degree messages startTable dstColumn wrapped proj srcWords dstWords
  rfl

/-- No operation writes an argument's buffer: after the line each argument holds what it held. -/
theorem arg0_eq (V : Valuation τ sig (Elt Ideal)) : after ops V (main_arg0 : DevRef τ sig) = V (main_arg0 : DevRef τ sig) := by
  after_results_simp
theorem arg1_eq (V : Valuation τ sig (Elt Ideal)) : after ops V (main_arg1 : DevRef τ sig) = V (main_arg1 : DevRef τ sig) := by
  after_results_simp
theorem arg2_eq (V : Valuation τ sig (Elt Ideal)) : after ops V (main_arg2 : DevRef τ sig) = V (main_arg2 : DevRef τ sig) := by
  after_results_simp
theorem arg3_eq (V : Valuation τ sig (Elt Ideal)) : after ops V (main_arg3 : DevRef τ sig) = V (main_arg3 : DevRef τ sig) := by
  after_results_simp
theorem arg4_eq (V : Valuation τ sig (Elt Ideal)) : after ops V (main_arg4 : DevRef τ sig) = V (main_arg4 : DevRef τ sig) := by
  after_results_simp
theorem arg5_eq (V : Valuation τ sig (Elt Ideal)) : after ops V (main_arg5 : DevRef τ sig) = V (main_arg5 : DevRef τ sig) := by
  after_results_simp
theorem arg6_eq (V : Valuation τ sig (Elt Ideal)) : after ops V (main_arg6 : DevRef τ sig) = V (main_arg6 : DevRef τ sig) := by
  after_results_simp
theorem arg7_eq (V : Valuation τ sig (Elt Ideal)) : after ops V (main_arg7 : DevRef τ sig) = V (main_arg7 : DevRef τ sig) := by
  after_results_simp

/-- Every weakly fair execution of the reference program at the extended reals terminates with the result array at `G`
    of the launch arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v39) = Cert.Sage.G Cert.Sage.dS (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7) :=
  (θ_run defs _ _).mono (fun _ h c =>
      ⟨(h c main_v39).trans ((out_eq (launchContents m c)).trans (refOut_eq _ _ _ _ _ _ _)),
        (h c main_arg0).trans (arg0_eq (launchContents m c)),
        (h c main_arg1).trans (arg1_eq (launchContents m c)),
        (h c main_arg2).trans (arg2_eq (launchContents m c)),
        (h c main_arg3).trans (arg3_eq (launchContents m c)),
        (h c main_arg4).trans (arg4_eq (launchContents m c)),
        (h c main_arg5).trans (arg5_eq (launchContents m c)),
        (h c main_arg6).trans (arg6_eq (launchContents m c)),
        (h c main_arg7).trans (arg7_eq (launchContents m c))⟩)
    (run_main m ρ)

end Cert.ReferenceIdeal.Sage

end
-- ==== Proof.lean ====
/-
  Kernel and reference compute one function of the arguments on the extended reals.

  Both programs are a one-layer mean-aggregating graph convolution followed by an exponential linear unit and a scalar
  output layer, over 500000 nodes with 17 features and 16000000 edges (`Cert.Sage.G`, Proof/Spec.lean). The kernel
  program projects the features against the neighbour and the root weights in ONE matrix product (its first region),
  gathers and accumulates the neighbour projections over the edges on the host, counts the in-degrees with integer words,
  and finishes node by node in its second region; the reference computes the two projections separately, counts with
  floats, and finishes on the host. On the extended reals the two agree without any use of the finiteness precondition:
  the matrix product's two columns are the two projections; an integer count below 2^31 converted to a float is the
  float count (Proof/LibCount.lean); `exp h − 1` is the reference's `expm1 h` on the branch where it is taken; a product
  with the 1 × 1 output weight is the reference's contraction over an axis of extent 1.

  The kernel program's and its word-level original's frames are the generated ones. The reference has no kernel: its
  frame is its run (Proof/RefValue.lean) with the result dropped. The idealization rewrote nothing, so `preserves` is
  `True`.
-/
import proofs.«411780_j40157944218343_4_alg».proof.Defs
import proofs.«411780_j40157944218343_4_alg».proof.Proof.Gen.Kernel
import proofs.«411780_j40157944218343_4_alg».proof.Proof.Gen.Kernel.Frame
import proofs.«411780_j40157944218343_4_alg».proof.Proof.Gen.KernelIdeal
import proofs.«411780_j40157944218343_4_alg».proof.Proof.Gen.KernelIdeal.Frame
import proofs.«411780_j40157944218343_4_alg».proof.Proof.Gen.ReferenceIdeal
import proofs.«411780_j40157944218343_4_alg».proof.Proof.Gen.Pre_finite_inputs
import proofs.«411780_j40157944218343_4_alg».proof.Proof.KValue
import proofs.«411780_j40157944218343_4_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs and keeps its arguments: its run, the result forgotten. -/
theorem frame_ri : Cert.frame_ReferenceIdeal := fun m ρ _ =>
  (θ_run Cert.ReferenceIdeal.defs _ _).mono (fun _ h c => (h c).2) (Cert.ReferenceIdeal.Sage.run m ρ)

/-- From memories that agree on the arguments both programs end with the result array at `G` of those arguments. -/
theorem algebraic : Cert.algebraic_KernelIdeal_ReferenceIdeal := by
  intro m ρ m' ρ' _ hagree
  refine ⟨fun c => Cert.Sage.G Cert.Sage.dS (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Sage.run m ρ, ?_⟩
  refine (θ_run Cert.ReferenceIdeal.defs _ _).mono (fun _ h c => ⟨(h c).1.trans ?_, (h c).2⟩)
    (Cert.ReferenceIdeal.Sage.run m' ρ')
  obtain ⟨h0, h1, -, h3, h4, h5, h6, h7⟩ := hagree c
  rw [h0, h1, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
